-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x8 : Shape := ⟨2, ![4194304, 8]⟩
abbrev S4194304 : Shape := ⟨1, ![4194304]⟩
abbrev S_ : Shape := ⟨0, ![]⟩

class Facts : Prop where
  bcast_S_S4194304x8 : S_.BroadcastsInDim S4194304x8 (![] : Fin 0 → Fin S4194304x8.rank)
  reducesTo_S4194304x8_S_d0_1 : S4194304x8.ReducesTo [0, 1] S_
  h_S_ : 0 < S_.numel

variable [Facts]

def fn {F : FTy → Type} [FloatOps F] (main_arg0 : FVec F S4194304x8 .f32) (main_arg1 : IVec S4194304 32) : IVec S_ 1 :=
  let main_v0 : FVec F S4194304x8 .f32 := Host.absf main_arg0
  let main_cst : FVec F S_ .f32 := constant S_ .f32 0x7F800000#32
  let main_v1 : FVec F S4194304x8 .f32 := broadcastInDim S4194304x8 ![] bcast_S_S4194304x8 main_cst
  let main_v2 : IVec S4194304x8 1 := cmpf .olt main_v0 main_v1
  let main_c : IVec S_ 1 := constantI S_ 1 1#1
  let main_v3 : IVec S_ 1 := (fun x v => Host.reduce IntOp.andi x v reducesTo_S4194304x8_S_d0_1 h_S_) main_v2 main_c
  main_v3
-- ==== Kernel.lean ====
abbrev S4194304x8 : Shape := ⟨2, ![4194304, 8]⟩
abbrev S4194304 : Shape := ⟨1, ![4194304]⟩
abbrev S8x4194304 : Shape := ⟨2, ![8, 4194304]⟩
abbrev S1x4194304 : Shape := ⟨2, ![1, 4194304]⟩
abbrev S2x8x8 : Shape := ⟨3, ![2, 8, 8]⟩
abbrev S8x65536 : Shape := ⟨2, ![8, 65536]⟩
abbrev S1x65536 : Shape := ⟨2, ![1, 65536]⟩
abbrev S1x8x8 : Shape := ⟨3, ![1, 8, 8]⟩
abbrev S8x8 : Shape := ⟨2, ![8, 8]⟩
abbrev S65536 : Shape := ⟨1, ![65536]⟩
abbrev S_ : Shape := ⟨0, ![]⟩
abbrev S8 : Shape := ⟨1, ![8]⟩
abbrev S8x1 : Shape := ⟨2, ![8, 1]⟩
abbrev S1x8 : Shape := ⟨2, ![1, 8]⟩

abbrev nBuf : Space → Nat
  | .hbm => 49
  | .vmem => 7
  | .smem => 0
  | _ => 0

abbrev bufTy : (tb : Table) → Fin (tcTables nBuf tb) → BufTy
  | .hbm, ⟨0, _⟩ => ⟨S4194304x8, .f32⟩
  | .hbm, ⟨1, _⟩ => ⟨S4194304, .i32⟩
  | .hbm, ⟨2, _⟩ => ⟨S8x4194304, .f32⟩
  | .hbm, ⟨3, _⟩ => ⟨S1x4194304, .i32⟩
  | .hbm, ⟨4, _⟩ => ⟨S2x8x8, .f32⟩
  | .hbm, ⟨5, _⟩ => ⟨S1x8x8, .f32⟩
  | .hbm, ⟨6, _⟩ => ⟨S8x8, .f32⟩
  | .hbm, ⟨7, _⟩ => ⟨S1x8x8, .f32⟩
  | .hbm, ⟨8, _⟩ => ⟨S8x8, .f32⟩
  | .hbm, ⟨9, _⟩ => ⟨S8x8, .f32⟩
  | .hbm, ⟨10, _⟩ => ⟨S_, .f32⟩
  | .hbm, ⟨11, _⟩ => ⟨S8, .f32⟩
  | .hbm, ⟨12, _⟩ => ⟨S8x1, .f32⟩
  | .hbm, ⟨13, _⟩ => ⟨S8x8, .f32⟩
  | .hbm, ⟨14, _⟩ => ⟨S8x8, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S8x8, .f32⟩
  | .hbm, ⟨22, _⟩ => ⟨S8x8, .f32⟩
  | .hbm, ⟨23, _⟩ => ⟨S_, .f32⟩
  | .hbm, ⟨24, _⟩ => ⟨S8, .f32⟩
  | .hbm, ⟨25, _⟩ => ⟨S8x1, .f32⟩
  | .hbm, ⟨26, _⟩ => ⟨S_, .f32⟩
  | .hbm, ⟨27, _⟩ => ⟨S8x1, .f32⟩
  | .hbm, ⟨28, _⟩ => ⟨S8x1, .f32⟩
  | .hbm, ⟨29, _⟩ => ⟨S_, .f32⟩
  | .hbm, ⟨30, _⟩ => ⟨S8, .f32⟩
  | .hbm, ⟨31, _⟩ => ⟨S1x8, .f32⟩
  | .hbm, ⟨32, _⟩ => ⟨S_, .f32⟩
  | .hbm, ⟨33, _⟩ => ⟨S1x8, .f32⟩
  | .hbm, ⟨34, _⟩ => ⟨S1x8, .f32⟩
  | .hbm, ⟨35, _⟩ => ⟨S8x8, .f32⟩
  | .hbm, ⟨36, _⟩ => ⟨S8x8, .f32⟩
  | .hbm, ⟨37, _⟩ => ⟨S8x8, .f32⟩
  | .hbm, ⟨38, _⟩ => ⟨S8x8, .f32⟩
  | .hbm, ⟨39, _⟩ => ⟨S_, .f32⟩
  | .hbm, ⟨40, _⟩ => ⟨S8x8, .f32⟩
  | .hbm, ⟨41, _⟩ => ⟨S8x8, .f32⟩
  | .hbm, ⟨42, _⟩ => ⟨S8x8, .f32⟩
  | .hbm, ⟨43, _⟩ => ⟨S8x8, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .local _ .vmem, ⟨0, _⟩ => ⟨S8x65536, .f32⟩
  | .local _ .vmem, ⟨1, _⟩ => ⟨S8x65536, .f32⟩
  | .local _ .vmem, ⟨2, _⟩ => ⟨S1x65536, .i32⟩
  | .local _ .vmem, ⟨3, _⟩ => ⟨S1x65536, .i32⟩
  | .local _ .vmem, ⟨4, _⟩ => ⟨S1x8x8, .f32⟩
  | .local _ .vmem, ⟨5, _⟩ => ⟨S1x8x8, .f32⟩
  | .local _ .vmem, ⟨6, _⟩ => ⟨S8x8, .f32⟩
  | _, _ => ⟨S4194304x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_v22 : Ref sig .tc := ⟨.hbm, 31, rfl⟩
abbrev main_cst_6 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_7 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_8 : Ref sig .tc := ⟨.hbm, 44, rfl⟩
abbrev main_v33 : Ref sig .tc := ⟨.hbm, 45, rfl⟩
abbrev main_v34 : Ref sig .tc := ⟨.hbm, 46, rfl⟩
abbrev main_cst_9 : Ref sig .tc := ⟨.hbm, 47, rfl⟩
abbrev main_v35 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v29 : BitVec 1 := Scalar.cmpi .eq arg1 c31_i32
  let v30 : BitVec 32 := Scalar.extui v29
  let c0_i32_10 : BitVec 32 := 0#32
  let v31 : BitVec 1 := Scalar.cmpi .ne v30 c0_i32_10
  v31

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x65536 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  transposes_S4194304x8_S8x4194304_1_0 : S4194304x8.Transposes [1, 0] S8x4194304
  shapeCasts_S4194304_S1x4194304 : S4194304.ShapeCasts S1x4194304
  inb_S8x8_S8x8_0_0 : ∀ a, (![0, 0] : Fin 2 → Nat) a + S8x8.size a ≤ S8x8.size a
  h_S8x8 : 0 < S8x8.numel
  shapeCasts_S8x8_S8x8 : S8x8.ShapeCasts S8x8
  inb_S8x65536_S8x65536_0_0 : ∀ a, (![0, 0] : Fin 2 → Nat) a + S8x65536.size a ≤ S8x65536.size a
  h_S8x65536 : 0 < S8x65536.numel
  shapeCasts_S8x65536_S8x65536 : S8x65536.ShapeCasts S8x65536
  reduces_S8x65536_S65536 : S8x65536.Reduces [0] S65536
  shapeCasts_S65536_S1x65536 : S65536.ShapeCasts S1x65536
  broadcasts_S1x65536_S8x65536 : S1x65536.Broadcasts S8x65536
  inb_S1x65536_S1x65536_0_0 : ∀ a, (![0, 0] : Fin 2 → Nat) a + S1x65536.size a ≤ S1x65536.size a
  h_S1x65536 : 0 < S1x65536.numel
  shapeCasts_S1x65536_S1x65536 : S1x65536.ShapeCasts S1x65536
  iota_S8x65536_d0_w32 : S8x65536.Iotas .tc 32 [0]
  natLt_1_32 : 1 < 32
  bitsLt_bf16_f32 : FTy.bits .bf16 < FTy.bits .f32
  inb_S1x8x8_S1x8x8_0_0_0 : ∀ a, (![0, 0, 0] : Fin 3 → Nat) a + S1x8x8.size a ≤ S1x8x8.size a
  h_S1x8x8 : 0 < S1x8x8.numel
  shapeCasts_S1x8x8_S8x8 : S1x8x8.ShapeCasts S8x8
  shapeCasts_S8x8_S1x8x8 : S8x8.ShapeCasts S1x8x8
  slices_S2x8x8_S1x8x8_0_0_0 : S2x8x8.Slices ![0, 0, 0] S1x8x8
  slices_S2x8x8_S1x8x8_1_0_0 : S2x8x8.Slices ![1, 0, 0] S1x8x8
  reducesTo_S8x8_S8_d1 : S8x8.ReducesTo [1] S8
  h_S_ : 0 < S_.numel
  bcast_S8_S8x1_0 : S8.BroadcastsInDim S8x1 (![0] : Fin 1 → Fin S8x1.rank)
  bcast_S8x1_S8x8_0_1 : S8x1.BroadcastsInDim S8x8 (![0, 1] : Fin 2 → Fin S8x8.rank)
  reducesTo_S8x8_S_d0_1 : S8x8.ReducesTo [0, 1] S_
  bcast_S_S8x8 : S_.BroadcastsInDim S8x8 (![] : Fin 0 → Fin S8x8.rank)
  bcast_S_S8x1 : S_.BroadcastsInDim S8x1 (![] : Fin 0 → Fin S8x1.rank)
  reducesTo_S8x8_S8_d0 : S8x8.ReducesTo [0] S8
  bcast_S8_S1x8_1 : S8.BroadcastsInDim S1x8 (![1] : Fin 1 → Fin S1x8.rank)
  bcast_S_S1x8 : S_.BroadcastsInDim S1x8 (![] : Fin 0 → Fin S1x8.rank)
  bcast_S1x8_S8x8_0_1 : S1x8.BroadcastsInDim S8x8 (![0, 1] : Fin 2 → Fin S8x8.rank)
  dot_S8x65536_S8x65536_S8x8_1_1_0_0_n_n_wf : DotDims.WF S8x65536 S8x65536 S8x8 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x65536.size a ≤ S8x4194304.size a
  hwx0_0 : ∀ i : grid0.Coords, EltTy.bits .f32 = 32 ∨ (Rect.block (s := S8x4194304) S8x65536.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x65536.size a ≤ S1x4194304.size a
  hwx0_1 : ∀ i : grid0.Coords, EltTy.bits .i32 = 32 ∨ (Rect.block (s := S1x4194304) S1x65536.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x8.size a ≤ S2x8x8.size a
  hwx0_2 : ∀ i : grid0.Coords, EltTy.bits .f32 = 32 ∨ (Rect.block (s := S2x8x8) S1x8x8.size (cc0_transform_2 i) (hinb0_2 i)).WholeWords (EltTy.packing .f32)

variable [Facts₀]

def dot_S8x65536_S8x65536_S8x8_1_1_0_0_n_n : DotDims S8x65536 S8x65536 S8x8 where
  lhsContracting := [1]
  rhsContracting := [1]
  lhsNonContracting := [0]
  rhsNonContracting := [0]
  lhsBatch := []
  rhsBatch := []
  wf := dot_S8x65536_S8x65536_S8x8_1_1_0_0_n_n_wf

abbrev win0_0 : Pipeline.Window sig grid0 :=
  Pipeline.Window.ofSpec (Memref.whole main_v0) S8x65536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x65536.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x8x8.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4194304x8 : Shape := ⟨2, ![4194304, 8]⟩
abbrev S4194304 : Shape := ⟨1, ![4194304]⟩
abbrev S_ : Shape := ⟨0, ![]⟩
abbrev S4194304x1 : Shape := ⟨2, ![4194304, 1]⟩
abbrev S8x8 : Shape := ⟨2, ![8, 8]⟩
abbrev S8 : Shape := ⟨1, ![8]⟩
abbrev S8x1 : Shape := ⟨2, ![8, 1]⟩
abbrev S1x8 : Shape := ⟨2, ![1, 8]⟩

abbrev nBuf : Space → Nat
  | .hbm => 63
  | .vmem => 0
  | .smem => 0
  | _ => 0

abbrev bufTy : (tb : Table) → Fin (tcTables nBuf tb) → BufTy
  | .hbm, ⟨0, _⟩ => ⟨S4194304x8, .f32⟩
  | .hbm, ⟨1, _⟩ => ⟨S4194304, .i32⟩
  | .hbm, ⟨2, _⟩ => ⟨S_, .f32⟩
  | .hbm, ⟨3, _⟩ => ⟨S4194304, .f32⟩
  | .hbm, ⟨4, _⟩ => ⟨S_, .f32⟩
  | .hbm, ⟨5, _⟩ => ⟨S4194304, .f32⟩
  | .hbm, ⟨6, _⟩ => ⟨S4194304, .f32⟩
  | .hbm, ⟨7, _⟩ => ⟨S4194304x1, .f32⟩
  | .hbm, ⟨8, _⟩ => ⟨S4194304x8, .f32⟩
  | .hbm, ⟨9, _⟩ => ⟨S4194304x8, .f32⟩
  | .hbm, ⟨10, _⟩ => ⟨S4194304x8, .f32⟩
  | .hbm, ⟨11, _⟩ => ⟨S_, .f32⟩
  | .hbm, ⟨12, _⟩ => ⟨S4194304, .f32⟩
  | .hbm, ⟨13, _⟩ => ⟨S4194304x1, .f32⟩
  | .hbm, ⟨14, _⟩ => ⟨S4194304x8, .f32⟩
  | .hbm, ⟨15, _⟩ => ⟨S4194304x8, .f32⟩
  | .hbm, ⟨16, _⟩ => ⟨S_, .f32⟩
  | .hbm, ⟨17, _⟩ => ⟨S8x8, .f32⟩
  | .hbm, ⟨18, _⟩ => ⟨S4194304x1, .i32⟩
  | .hbm, ⟨19, _⟩ => ⟨S8x8, .f32⟩
  | .hbm, ⟨20, _⟩ => ⟨S_, .f32⟩
  | .hbm, ⟨21, _⟩ => ⟨S4194304, .f32⟩
  | .hbm, ⟨22, _⟩ => ⟨S_, .f32⟩
  | .hbm, ⟨23, _⟩ => ⟨S8, .f32⟩
  | .hbm, ⟨24, _⟩ => ⟨S4194304x1, .i32⟩
  | .hbm, ⟨25, _⟩ => ⟨S8, .f32⟩
  | .hbm, ⟨26, _⟩ => ⟨S8x1, .f32⟩
  | .hbm, ⟨27, _⟩ => ⟨S8x8, .f32⟩
  | .hbm, ⟨28, _⟩ => ⟨S8x8, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S8x8, .f32⟩
  | .hbm, ⟨36, _⟩ => ⟨S8x8, .f32⟩
  | .hbm, ⟨37, _⟩ => ⟨S_, .f32⟩
  | .hbm, ⟨38, _⟩ => ⟨S8, .f32⟩
  | .hbm, ⟨39, _⟩ => ⟨S8x1, .f32⟩
  | .hbm, ⟨40, _⟩ => ⟨S_, .f32⟩
  | .hbm, ⟨41, _⟩ => ⟨S8x1, .f32⟩
  | .hbm, ⟨42, _⟩ => ⟨S8x1, .f32⟩
  | .hbm, ⟨43, _⟩ => ⟨S_, .f32⟩
  | .hbm, ⟨44, _⟩ => ⟨S8, .f32⟩
  | .hbm, ⟨45, _⟩ => ⟨S1x8, .f32⟩
  | .hbm, ⟨46, _⟩ => ⟨S_, .f32⟩
  | .hbm, ⟨47, _⟩ => ⟨S1x8, .f32⟩
  | .hbm, ⟨48, _⟩ => ⟨S1x8, .f32⟩
  | .hbm, ⟨49, _⟩ => ⟨S8x8, .f32⟩
  | .hbm, ⟨50, _⟩ => ⟨S8x8, .f32⟩
  | .hbm, ⟨51, _⟩ => ⟨S8x8, .f32⟩
  | .hbm, ⟨52, _⟩ => ⟨S8x8, .f32⟩
  | .hbm, ⟨53, _⟩ => ⟨S_, .f32⟩
  | .hbm, ⟨54, _⟩ => ⟨S8x8, .f32⟩
  | .hbm, ⟨55, _⟩ => ⟨S8x8, .f32⟩
  | .hbm, ⟨56, _⟩ => ⟨S8x8, .f32⟩
  | .hbm, ⟨57, _⟩ => ⟨S8x8, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | _, _ => ⟨S4194304x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_cst_6 : Ref sig .tc := ⟨.hbm, 31, rfl⟩
abbrev main_v22 : Ref sig .tc := ⟨.hbm, 32, rfl⟩
abbrev main_cst_7 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_8 : Ref sig .tc := ⟨.hbm, 37, rfl⟩
abbrev main_v26 : Ref sig .tc := ⟨.hbm, 38, rfl⟩
abbrev main_v27 : Ref sig .tc := ⟨.hbm, 39, rfl⟩
abbrev main_cst_9 : Ref sig .tc := ⟨.hbm, 40, rfl⟩
abbrev main_v28 : Ref sig .tc := ⟨.hbm, 41, rfl⟩
abbrev main_v29 : Ref sig .tc := ⟨.hbm, 42, rfl⟩
abbrev main_cst_10 : Ref sig .tc := ⟨.hbm, 43, rfl⟩
abbrev main_v30 : Ref sig .tc := ⟨.hbm, 44, rfl⟩
abbrev main_v31 : Ref sig .tc := ⟨.hbm, 45, rfl⟩
abbrev main_cst_11 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_12 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_13 : Ref sig .tc := ⟨.hbm, 58, rfl⟩
abbrev main_v42 : Ref sig .tc := ⟨.hbm, 59, rfl⟩
abbrev main_v43 : Ref sig .tc := ⟨.hbm, 60, rfl⟩
abbrev main_cst_14 : Ref sig .tc := ⟨.hbm, 61, rfl⟩
abbrev main_v44 : Ref sig .tc := ⟨.hbm, 62, rfl⟩

abbrev nD : Nat := 1
abbrev τ : Topo := Topo.v7x

variable {F : FTy → Type} [FloatOps F]

class Facts₀ : Prop where
  reducesTo_S4194304x8_S4194304_d1 : S4194304x8.ReducesTo [1] S4194304
  h_S_ : 0 < S_.numel
  bcast_S_S4194304 : S_.BroadcastsInDim S4194304 (![] : Fin 0 → Fin S4194304.rank)
  bcast_S4194304_S4194304x1_0 : S4194304.BroadcastsInDim S4194304x1 (![0] : Fin 1 → Fin S4194304x1.rank)
  bcast_S4194304x1_S4194304x8_0_1 : S4194304x1.BroadcastsInDim S4194304x8 (![0, 1] : Fin 2 → Fin S4194304x8.rank)
  bcast_S_S8x8 : S_.BroadcastsInDim S8x8 (![] : Fin 0 → Fin S8x8.rank)
  bcast_S_S8 : S_.BroadcastsInDim S8 (![] : Fin 0 → Fin S8.rank)
  bcast_S8_S8x1_0 : S8.BroadcastsInDim S8x1 (![0] : Fin 1 → Fin S8x1.rank)
  bcast_S8x1_S8x8_0_1 : S8x1.BroadcastsInDim S8x8 (![0, 1] : Fin 2 → Fin S8x8.rank)
  reducesTo_S8x8_S_d0_1 : S8x8.ReducesTo [0, 1] S_
  reducesTo_S8x8_S8_d1 : S8x8.ReducesTo [1] S8
  bcast_S_S8x1 : S_.BroadcastsInDim S8x1 (![] : Fin 0 → Fin S8x1.rank)
  reducesTo_S8x8_S8_d0 : S8x8.ReducesTo [0] S8
  bcast_S8_S1x8_1 : S8.BroadcastsInDim S1x8 (![1] : Fin 1 → Fin S1x8.rank)
  bcast_S_S1x8 : S_.BroadcastsInDim S1x8 (![] : Fin 0 → Fin S1x8.rank)
  bcast_S1x8_S8x8_0_1 : S1x8.BroadcastsInDim S8x8 (![0, 1] : Fin 2 → Fin S8x8.rank)
  scatter_S8x8_S4194304x1_S4194304x8_1_0_0_1_wf : ScatterDims.WF S8x8 S4194304x1 S4194304x8 [1] [0] [0] 1
  scatter_S8_S4194304x1_S4194304_n_0_0_1_wf : ScatterDims.WF S8 S4194304x1 S4194304 [] [0] [0] 1

variable [Facts₀]

def scatter_S8x8_S4194304x1_S4194304x8_1_0_0_1 : ScatterDims S8x8 S4194304x1 S4194304x8 where
  updateWindowDims := [1]
  insertedWindowDims := [0]
  scatterDimsToOperandDims := [0]
  indexVectorDim := 1
  wf := scatter_S8x8_S4194304x1_S4194304x8_1_0_0_1_wf
def scatter_S8_S4194304x1_S4194304_n_0_0_1 : ScatterDims S8 S4194304x1 S4194304 where
  updateWindowDims := []
  insertedWindowDims := [0]
  scatterDimsToOperandDims := [0]
  indexVectorDim := 1
  wf := scatter_S8_S4194304x1_S4194304_n_0_0_1_wf

class Facts : Prop extends Facts₀ where

variable [Facts]
-- ==== Proof.KBody.lean ====
/-
  What one run of the kernel body leaves behind, case by case, as values: the 8×8 accumulator ends at the
  accumulation step `k0_pay2` of the two input blocks over what it held (over the zero block where the point
  resets it first), and where the point writes its output block, that block is the accumulator recast to 1×8×8.
-/
import proofs.«410063_j17334488007391_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Body

open Cert.KernelIdeal Cert.KernelIdeal.Gen

variable {F : FTy → Type} [FloatOps F]

/-- The rank-2 zero offsets, as a constant function. -/
theorem hz2 : (![0, 0] : Fin 2 → Nat) = fun _ => 0 := funext fun a => by fin_cases a <;> rfl

/-- The rank-3 zero offsets, as a constant function. -/
theorem hz3 : (![0, 0, 0] : Fin 3 → Nat) = fun _ => 0 := funext fun a => by fin_cases a <;> rfl

/-- A resetting point: the accumulator ends at the step over the zero block. -/
theorem acc_reset (c : Dev nD) (i : grid0.Coords) (arg2 : Memref sig .tc .vmem S8x65536 .f32) (harg2 : arg2.IsWhole) (arg3 : Memref sig .tc .vmem S1x65536 .i32) (harg3 : arg3.IsWhole) (arg4 : Memref sig .tc .vmem S1x8x8 .f32) (harg4 : arg4.IsWhole) (arg5 : Memref sig .tc .vmem S8x8 .f32) (harg5 : arg5.IsWhole) (hc0 : cond0_0 i) (hc1 : ¬cond0_1 i)
    (x0 : Vec F S8x65536 .f32) (x1 : Vec F S1x65536 .i32) :
    sout0_A_0 c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S8x8) hz2, View.readCov_unit_zero (S := S8x8) _ hz2]
  simp only [View.readAt_eq_ld, harg2.read_unread, harg3.read_unread, View.ld_unit_zero (S := S8x65536) hz2, View.ld_unit_zero (S := S1x65536) hz2, View.ld_unit_zero (S := S8x8) hz2]

/-- A middle point: the accumulator ends at the step over what the point before left. -/
theorem acc_step (c : Dev nD) (i : grid0.Coords) (arg2 : Memref sig .tc .vmem S8x65536 .f32) (harg2 : arg2.IsWhole) (arg3 : Memref sig .tc .vmem S1x65536 .i32) (harg3 : arg3.IsWhole) (arg4 : Memref sig .tc .vmem S1x8x8 .f32) (harg4 : arg4.IsWhole) (arg5 : Memref sig .tc .vmem S8x8 .f32) (harg5 : arg5.IsWhole) (hc0 : ¬cond0_0 i) (hc1 : ¬cond0_1 i)
    (x0 : Vec F S8x65536 .f32) (x1 : Vec F S1x65536 .i32) (xs0 : Vec F S8x8 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz2]
  simp only [View.readAt_eq_ld, harg2.read_unread, harg3.read_unread, harg5.read_unread, View.ld_unit_zero (S := S8x65536) hz2, View.ld_unit_zero (S := S1x65536) hz2, View.ld_unit_zero (S := S8x8) hz2]

/-- A last point of a half: the accumulator likewise, -/
theorem acc_last (c : Dev nD) (i : grid0.Coords) (arg2 : Memref sig .tc .vmem S8x65536 .f32) (harg2 : arg2.IsWhole) (arg3 : Memref sig .tc .vmem S1x65536 .i32) (harg3 : arg3.IsWhole) (arg4 : Memref sig .tc .vmem S1x8x8 .f32) (harg4 : arg4.IsWhole) (arg5 : Memref sig .tc .vmem S8x8 .f32) (harg5 : arg5.IsWhole) (hc0 : ¬cond0_0 i) (hc1 : cond0_1 i)
    (x0 : Vec F S8x65536 .f32) (x1 : Vec F S1x65536 .i32) (xs0 : Vec F S8x8 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz2]
  simp only [View.readAt_eq_ld, harg2.read_unread, harg3.read_unread, harg5.read_unread, View.ld_unit_zero (S := S8x65536) hz2, View.ld_unit_zero (S := S1x65536) hz2, View.ld_unit_zero (S := S8x8) hz2]

/-- and the output block is that accumulator recast. -/
theorem out_last (c : Dev nD) (i : grid0.Coords) (arg2 : Memref sig .tc .vmem S8x65536 .f32) (harg2 : arg2.IsWhole) (arg3 : Memref sig .tc .vmem S1x65536 .i32) (harg3 : arg3.IsWhole) (arg4 : Memref sig .tc .vmem S1x8x8 .f32) (harg4 : arg4.IsWhole) (arg5 : Memref sig .tc .vmem S8x8 .f32) (harg5 : arg5.IsWhole) (hc0 : ¬cond0_0 i) (hc1 : cond0_1 i)
    (x0 : Vec F S8x65536 .f32) (x1 : Vec F S1x65536 .i32) (xs0 : Vec F S8x8 .f32) :
    out0_C_2 c i arg2 harg2 arg3 harg3 arg4 harg4 arg5 harg5 hc0 hc1 x0 x1 xs0 = k0_pay3 (k0_pay2 x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz3]
  simp only [View.readAt_eq_ld, harg2.read_unread, harg3.read_unread, harg5.read_unread, View.readCov_unit_zero (S := S8x8) _ hz2, View.ld_unit_zero (S := S8x65536) hz2, View.ld_unit_zero (S := S1x65536) hz2, View.ld_unit_zero (S := S8x8) hz2]

end Cert.KernelIdeal.Body

end
-- ==== Proof.Spec.lean ====
/-
  The mathematics both programs share, stated with no program in sight.

  Each of 4194304 tokens has eight logits and a 32-bit label word. A token's softmax is taken against its row
  maximum (a fold of `max` from −∞); `segSum t e` adds expert `e`'s softmax probability over the tokens whose label
  word is task `t` (a label outside 0..7 meets no task and is dropped), and `segCnt t` counts those tokens. From the
  8×8 table of segment sums and the eight counts both programs then compute ONE scalar by the same chain of host
  operations, `tail`: it is never opened, only applied to equal arguments.
-/
import Idealize.ShloMosaic.PureOps
import Idealize.ShloMosaic.PureOps.Ideal
import Idealize.ShloMosaic.PureOps.Ideal.Laws
import Idealize.ShloMosaic.Lib.ValueIdx

noncomputable section

namespace Cert.Spec

open Idealize.ShloMosaic

abbrev T88 : Shape := ⟨2, ![8, 8]⟩
abbrev T8 : Shape := ⟨1, ![8]⟩
abbrev T81 : Shape := ⟨2, ![8, 1]⟩
abbrev T18 : Shape := ⟨2, ![1, 8]⟩
abbrev T0 : Shape := ⟨0, ![]⟩

/-- The shape relations the shared chain's reductions and broadcasts take. -/
structure TailFacts : Prop where
  r1 : T88.ReducesTo [1] T8
  r0 : T88.ReducesTo [0] T8
  r01 : T88.ReducesTo [0, 1] T0
  h0 : 0 < T0.numel
  b8_81 : T8.BroadcastsInDim T81 (![0] : Fin 1 → Fin T81.rank)
  b81_88 : T81.BroadcastsInDim T88 (![0, 1] : Fin 2 → Fin T88.rank)
  b0_88 : T0.BroadcastsInDim T88 (![] : Fin 0 → Fin T88.rank)
  b0_81 : T0.BroadcastsInDim T81 (![] : Fin 0 → Fin T81.rank)
  b8_18 : T8.BroadcastsInDim T18 (![1] : Fin 1 → Fin T18.rank)
  b0_18 : T0.BroadcastsInDim T18 (![] : Fin 0 → Fin T18.rank)
  b18_88 : T18.BroadcastsInDim T88 (![0, 1] : Fin 2 → Fin T88.rank)

/-- The scalar both programs compute from the segment sums `seg` and the counts `cnt`: with
    `G = seg · cnt[:, None]`, `G' = G / (ΣG / 2 + ε)`, row sums `P = Σₑ G' + ε` and column sums `Q = Σₜ G' + ε`,
    it is `0.01 · −Σ G' · log (G' / P / Q + ε)`. -/
def tail {F : FTy → Type} [FloatOps F] (tf : TailFacts) (seg : FVec F T88 .f32) (cnt : FVec F T8 .f32) : FVec F T0 .f32 :=
  let g : FVec F T88 .f32 := mulf seg (broadcastInDim T88 ![0, 1] tf.b81_88 (broadcastInDim T81 ![0] tf.b8_81 cnt))
  let tot : FVec F T0 .f32 := addf (Host.divf (Host.reduceAdd g (constant T0 .f32 0x00000000#32) tf.r01 tf.h0) (constant T0 .f32 0x40000000#32)) (constant T0 .f32 0x38D1B717#32)
  let g' : FVec F T88 .f32 := Host.divf g (broadcastInDim T88 ![] tf.b0_88 tot)
  let p : FVec F T81 .f32 := addf (broadcastInDim T81 ![0] tf.b8_81 (Host.reduceAdd g' (constant T0 .f32 0x00000000#32) tf.r1 tf.h0)) (broadcastInDim T81 ![] tf.b0_81 (constant T0 .f32 0x38D1B717#32))
  let q : FVec F T18 .f32 := addf (broadcastInDim T18 ![1] tf.b8_18 (Host.reduceAdd g' (constant T0 .f32 0x00000000#32) tf.r0 tf.h0)) (broadcastInDim T18 ![] tf.b0_18 (constant T0 .f32 0x38D1B717#32))
  let r : FVec F T88 .f32 := Host.divf (Host.divf g' (broadcastInDim T88 ![0, 1] tf.b81_88 p)) (broadcastInDim T88 ![0, 1] tf.b18_88 q)
  let s : FVec F T88 .f32 := mulf g' (Host.log (addf r (broadcastInDim T88 ![] tf.b0_88 (constant T0 .f32 0x38D1B717#32))))
  mulf (constant T0 .f32 0x3C23D70A#32) (Host.negf (Host.reduceAdd s (constant T0 .f32 0x00000000#32) tf.r01 tf.h0))

/-- A token's row maximum: the fold of `max` over its eight logits from −∞. -/
def rowMax (X : Fin 8 → EReal) : EReal :=
  (Finset.univ : Finset (Fin 8)).fold max (Ideal.ofBits .f32 0xFF800000#32) X

/-- A token's softmax probability of expert `e`: `exp (xₑ − M) / Σₖ exp (xₖ − M)` with `M` the row maximum. -/
def sm (X : Fin 8 → EReal) (e : Fin 8) : EReal :=
  Ideal.div (Ideal.exp (X e - rowMax X)) (∑ k : Fin 8, Ideal.exp (X k - rowMax X))

/-- Token `l` of block `b` (64 blocks of 65536 tokens). -/
def tokB (b : Fin 64) (l : Fin 65536) : Fin 4194304 :=
  ⟨b.val * 65536 + l.val, by have := b.isLt; have := l.isLt; omega⟩

/-- Expert `e`'s probability summed over the tokens of task `t`. -/
def segSum (X : Fin 4194304 → Fin 8 → EReal) (L : Fin 4194304 → BitVec 32) (t e : Fin 8) : EReal :=
  ∑ n : Fin 4194304, if L n = BitVec.ofNat 32 t.val then sm (X n) e else 0

/-- The number of tokens of task `t`. -/
def segCnt (L : Fin 4194304 → BitVec 32) (t : Fin 8) : EReal :=
  ∑ n : Fin 4194304, if L n = BitVec.ofNat 32 t.val then 1 else 0

/-- One block's share of `segSum`. -/
def blockSum (X : Fin 4194304 → Fin 8 → EReal) (L : Fin 4194304 → BitVec 32) (b : Fin 64) (t e : Fin 8) : EReal :=
  ∑ l : Fin 65536, if L (tokB b l) = BitVec.ofNat 32 t.val then sm (X (tokB b l)) e else 0

end Cert.Spec

end
-- ==== Proof.KPay.lean ====
/-
  The accumulation step read at an entry, over the extended reals: entry (t, e) of the step is the old entry plus,
  over the block's 65536 tokens, the softmax probability of expert `e` at the tokens whose label word is task `t`
  (the one-hot factor is 1 there and 0 elsewhere; the narrowing to bf16 is the identity on extended reals).
-/
import proofs.«410063_j17334488007391_2_alg».proof.Proof.Gen.KernelIdeal.Skeleton
import proofs.«410063_j17334488007391_2_alg».proof.Proof.Spec
import Idealize.ShloMosaic.Lib.Pipeline.Value
import Idealize.ShloMosaic.Lib.ValueLayout

noncomputable section

open Idealize.ShloMosaic Idealize.ShloMosaic.ValueIdx

namespace Cert.KernelIdeal.Pay

open Cert.KernelIdeal Cert.KernelIdeal.Gen

/-! ## The two lane reductions of an 8 × 65536 block, read at a lane -/

/-- Over lane `l`, the source index with row `k` inserted is `(k, l)`. -/
theorem lift_lane (h : S8x65536.Reduces [0] S65536) (l : Fin 65536) (k : Fin 8) :
    h.lift (ix1 l) k = ix2 k l := by
  funext c
  apply Fin.ext
  match c with
  | ⟨0, _⟩ => rfl
  | ⟨1, _⟩ => rfl

/-- The maximum over the eight rows, at lane `l`, is the row maximum of that lane's eight entries. -/
theorem laneMax_apply (x : FVec Ideal S8x65536 .f32) (l : Fin 65536) :
    multiReduction (F := Ideal) .maximumf [0] S65536 x 0xFF800000#32 reduces_S8x65536_S65536 (.inl rfl) rfl (ix1 l)
      = Cert.Spec.rowMax fun k : Fin 8 => x (ix2 k l) := by
  refine (Ideal.multiReduction_maximumf_single x _ reduces_S8x65536_S65536 (.inl rfl) rfl (ix1 l)).trans ?_
  unfold Cert.Spec.rowMax
  show (Finset.univ : Finset (Fin 8)).fold max (Ideal.ofBits .f32 0xFF800000#32)
      (fun k : Fin 8 => x (reduces_S8x65536_S65536.lift (ix1 l) k)) = _
  congr 1
  funext k
  rw [lift_lane]

/-- The sum over the eight rows, at lane `l`, is the sum of that lane's eight entries. -/
theorem laneSum_apply (x : FVec Ideal S8x65536 .f32) (l : Fin 65536) :
    multiReduction (F := Ideal) .add [0] S65536 x 0x00000000#32 reduces_S8x65536_S65536 (.inl rfl) rfl (ix1 l)
      = ∑ k : Fin 8, x (ix2 k l) := by
  refine (Ideal.multiReduction_add_single x _ reduces_S8x65536_S65536 (.inl rfl) rfl (ix1 l)).trans ?_
  exact Finset.sum_congr rfl fun k _ => congrArg x (lift_lane _ l k)

/-- A lane vector viewed as one row and copied down the eight rows reads, at `(k, l)`, the vector at `l`. -/
theorem keep_apply {α : Type} (r : S65536.Idx → α) (k : Fin 8) (l : Fin 65536) :
    broadcastTo S8x65536 (shapeCast S1x65536 r shapeCasts_S65536_S1x65536) broadcasts_S1x65536_S8x65536 (ix2 k l)
      = r (ix1 l) := by
  rw [broadcastTo_1b_ab_apply, shapeCast_a_1a_apply]

/-! ## The softmax block -/

/-- The block of exponentials `exp (x − M)`, `M` each lane's maximum over the eight rows copied down the rows. -/
def expo (x : FVec Ideal S8x65536 .f32) : FVec Ideal S8x65536 .f32 :=
  exp (subf x (broadcastTo S8x65536 (shapeCast S1x65536
    (multiReduction .maximumf [0] S65536 x 0xFF800000#32 reduces_S8x65536_S65536 (.inl rfl) rfl)
    shapeCasts_S65536_S1x65536) broadcasts_S1x65536_S8x65536))

/-- At `(k, l)` it is `exp` of the entry less the row maximum of lane `l`'s eight entries. -/
theorem expo_apply (x : FVec Ideal S8x65536 .f32) (k : Fin 8) (l : Fin 65536) :
    expo x (ix2 k l) = Ideal.exp (x (ix2 k l) - Cert.Spec.rowMax fun k' : Fin 8 => x (ix2 k' l)) := by
  show Ideal.exp (x (ix2 k l) - broadcastTo S8x65536 _ broadcasts_S1x65536_S8x65536 (ix2 k l)) = _
  rw [keep_apply, laneMax_apply]

/-- The block of probabilities: each exponential over its lane's sum of exponentials, copied down the rows. -/
def probs (x : FVec Ideal S8x65536 .f32) : FVec Ideal S8x65536 .f32 :=
  divf (expo x) (broadcastTo S8x65536 (shapeCast S1x65536
    (multiReduction .add [0] S65536 (expo x) 0x00000000#32 reduces_S8x65536_S65536 (.inl rfl) rfl)
    shapeCasts_S65536_S1x65536) broadcasts_S1x65536_S8x65536)

/-- At `(k, l)` it is the softmax probability of expert `k` among lane `l`'s eight logits. -/
theorem probs_apply (x : FVec Ideal S8x65536 .f32) (k : Fin 8) (l : Fin 65536) :
    probs x (ix2 k l) = Cert.Spec.sm (fun k' : Fin 8 => x (ix2 k' l)) k := by
  unfold probs
  rw [divf_apply, keep_apply, laneSum_apply, expo_apply]
  unfold Cert.Spec.sm
  exact congrArg (Ideal.div _) (Finset.sum_congr rfl fun k' _ => expo_apply x k' l)

/-! ## The one-hot block -/

/-- Two words compared for equality, the bit widened to a word and read signed: 1 if they are equal, else 0. -/
theorem eqBit_toInt (a b : BitVec 32) : ((IntOp.cmpi .eq a b).setWidth 32).toInt = if a = b then 1 else 0 := by
  unfold IntOp.cmpi
  by_cases h : a = b
  · subst h
    rw [if_pos rfl]
    simp
  · rw [if_neg h]
    have hb : (a == b) = false := by simpa using h
    simp [hb]

/-- The block of one-hot factors: the label row copied down the rows, compared with the row number. -/
def hot (lab : IVec S1x65536 32) : FVec Ideal S8x65536 .f32 :=
  sitofp .f32 (extui 32 (cmpi .eq (broadcastTo S8x65536 lab broadcasts_S1x65536_S8x65536)
    (iota .tc S8x65536 32 [0] iota_S8x65536_d0_w32)) natLt_1_32)

/-- At `(t, l)` it is 1 if token `l`'s label word is `t`, else 0. -/
theorem hot_apply (lab : IVec S1x65536 32) (t : Fin 8) (l : Fin 65536) :
    hot lab (ix2 t l) = if lab (ix2 (0 : Fin 1) l) = BitVec.ofNat 32 t.val then 1 else 0 := by
  show ((((IntOp.cmpi .eq (broadcastTo S8x65536 lab broadcasts_S1x65536_S8x65536 (ix2 t l))
      (iota .tc S8x65536 32 [0] iota_S8x65536_d0_w32 (ix2 t l))).setWidth 32).toInt : ℝ) : EReal) = _
  rw [broadcastTo_1b_ab_apply, iota_single_apply, eqBit_toInt]
  show (((if lab (ix2 (0 : Fin 1) l) = BitVec.ofNat 32 t.val then (1 : ℤ) else 0 : ℤ) : ℝ) : EReal) = _
  split <;> simp

/-! ## The contraction's operand indices -/

theorem lhs_axis0 (j : S8x8.Idx) (k : dot_S8x65536_S8x65536_S8x8_1_1_0_0_n_n.contr.Idx) :
    (dot_S8x65536_S8x65536_S8x8_1_1_0_0_n_n.lhsIdx j k (0 : Fin 2)).val = (j 0).val := by
  simp [DotDims.lhsIdx, dot_S8x65536_S8x65536_S8x8_1_1_0_0_n_n]
  rfl

theorem lhs_axis1 (j : S8x8.Idx) (k : dot_S8x65536_S8x65536_S8x8_1_1_0_0_n_n.contr.Idx) :
    (dot_S8x65536_S8x65536_S8x8_1_1_0_0_n_n.lhsIdx j k (1 : Fin 2)).val = (k ⟨0, by decide⟩).val :=
  dot_S8x65536_S8x65536_S8x8_1_1_0_0_n_n.lhsIdx_val_of_single rfl j k

theorem rhs_axis0 (j : S8x8.Idx) (k : dot_S8x65536_S8x65536_S8x8_1_1_0_0_n_n.contr.Idx) :
    (dot_S8x65536_S8x65536_S8x8_1_1_0_0_n_n.rhsIdx j k (0 : Fin 2)).val = (j 1).val := by
  simp [DotDims.rhsIdx, dot_S8x65536_S8x65536_S8x8_1_1_0_0_n_n]
  rfl

theorem rhs_axis1 (j : S8x8.Idx) (k : dot_S8x65536_S8x65536_S8x8_1_1_0_0_n_n.contr.Idx) :
    (dot_S8x65536_S8x65536_S8x8_1_1_0_0_n_n.rhsIdx j k (1 : Fin 2)).val = (k ⟨0, by decide⟩).val :=
  dot_S8x65536_S8x65536_S8x8_1_1_0_0_n_n.rhsIdx_val_of_single rfl j k

/-! ## The three payloads -/

/-- The step's payload over the two blocks above. -/
theorem pay2_eq (x0 : Vec Ideal S8x65536 .f32) (x1 : Vec Ideal S1x65536 .i32) (acc : Vec Ideal S8x8 .f32) :
    k0_pay2 (F := Ideal) x0 x1 acc
      = shapeCast S8x8 (addf acc (matmul dot_S8x65536_S8x65536_S8x8_1_1_0_0_n_n none
          (truncf .bf16 (hot (shapeCast S1x65536 x1 shapeCasts_S1x65536_S1x65536)) bitsLt_bf16_f32)
          (truncf .bf16 (probs (shapeCast S8x65536 x0 shapeCasts_S8x65536_S8x65536)) bitsLt_bf16_f32)
          (constant S8x8 .f32 0x00000000#32))) shapeCasts_S8x8_S8x8 := rfl

/-- At output entry `(t, e)` and contraction position `l` the left operand is read at `(t, l)`. -/
theorem lhs_at (t e : Fin 8) (l : Fin 65536) :
    dot_S8x65536_S8x65536_S8x8_1_1_0_0_n_n.lhsIdx (ix2 t e)
      ((contrEquiv1 dot_S8x65536_S8x65536_S8x8_1_1_0_0_n_n 65536 rfl rfl).symm l) = ix2 t l := by
  funext ax
  apply Fin.ext
  match ax with
  | ⟨0, _⟩ => exact lhs_axis0 _ _
  | ⟨1, _⟩ =>
    exact (lhs_axis1 _ _).trans (contrEquiv1_symm_val dot_S8x65536_S8x65536_S8x8_1_1_0_0_n_n 65536 rfl rfl l)

/-- … and the right operand at `(e, l)`. -/
theorem rhs_at (t e : Fin 8) (l : Fin 65536) :
    dot_S8x65536_S8x65536_S8x8_1_1_0_0_n_n.rhsIdx (ix2 t e)
      ((contrEquiv1 dot_S8x65536_S8x65536_S8x8_1_1_0_0_n_n 65536 rfl rfl).symm l) = ix2 e l := by
  funext ax
  apply Fin.ext
  match ax with
  | ⟨0, _⟩ => exact rhs_axis0 _ _
  | ⟨1, _⟩ =>
    exact (rhs_axis1 _ _).trans (contrEquiv1_symm_val dot_S8x65536_S8x65536_S8x8_1_1_0_0_n_n 65536 rfl rfl l)

/-- The zero block. -/
theorem zero_apply (t e : Fin 8) : k0_pay1 (F := Ideal) (ix2 t e) = 0 := by
  show shapeCast S8x8 (broadcast S8x8 (Scalar.ofBits (F := Ideal) .f32 0x00000000#32)) shapeCasts_S8x8_S8x8 (ix2 t e) = 0
  rw [shapeCast_self]
  exact Ideal.ofBits_zero_f32

/-- The accumulation step at entry (t, e). -/
theorem step_apply (x0 : Vec Ideal S8x65536 .f32) (x1 : Vec Ideal S1x65536 .i32) (acc : Vec Ideal S8x8 .f32) (t e : Fin 8) :
    k0_pay2 (F := Ideal) x0 x1 acc (ix2 t e)
      = acc (ix2 t e) + ∑ l : Fin 65536,
          if x1 (ix2 (0 : Fin 1) l) = BitVec.ofNat 32 t.val then Cert.Spec.sm (fun k : Fin 8 => x0 (ix2 k l)) e else 0 := by
  rw [pay2_eq]
  simp only [shapeCast_self]
  rw [addf_apply]
  refine congrArg (acc (ix2 t e) + ·) ?_
  refine (Ideal.matmul_constant_zero_apply dot_S8x65536_S8x65536_S8x8_1_1_0_0_n_n none _ _ _).trans ?_
  rw [← Equiv.sum_comp (contrEquiv1 dot_S8x65536_S8x65536_S8x8_1_1_0_0_n_n 65536 rfl rfl).symm]
  refine Finset.sum_congr rfl fun l _ => ?_
  rw [lhs_at, rhs_at, truncf_apply, truncf_apply, hot_apply, probs_apply]
  split
  · exact one_mul _
  · exact zero_mul _

/-- The recast to 1×8×8 keeps the entries. -/
theorem recast_apply (v : Vec Ideal S8x8 .f32) (t e : Fin 8) :
    k0_pay3 (F := Ideal) v (ix3 (0 : Fin 1) t e) = v (ix2 t e) := by
  unfold k0_pay3
  exact shapeCast_ab_1ab_apply v _ 0 t e

end Cert.KernelIdeal.Pay

end
-- ==== Proof.KAcc.lean ====
/-
  The kernel's accumulation, point by point. The grid has 64 points, point `n` reading block `n` of the tokens
  (65536 of them: columns `65536·n …` of the transposed logits, and of the labels laid out as one row). Within each
  half of the grid (32 points) the 8×8 accumulator is reset at the first point and grows by one block's share of the
  segment sums at every point, so after point `n` it holds the shares of the blocks from the half's first up to `n`;
  the half's last point writes it out as row `n / 32` of the 2×8×8 result.
-/
import proofs.«410063_j17334488007391_2_alg».proof.Proof.KBody
import proofs.«410063_j17334488007391_2_alg».proof.Proof.KPay
import proofs.«410063_j17334488007391_2_alg».proof.Proof.Spec
import proofs.«410063_j17334488007391_2_alg».proof.Proof.Gen.KernelIdeal.Frame
import Idealize.ShloMosaic.Lib.Pipeline.Value
import Idealize.ShloMosaic.Lib.StableHlo.Run
import Idealize.ShloMosaic.Lib.ValueLayout
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen

variable (m : (ℓ : Loc nD τ sig) → Buf (Elt Ideal) ℓ)

/-- The logits by token and expert, and the label words by token, as launched. -/
abbrev logits (c : Dev nD) : Fin 4194304 → Fin 8 → EReal := fun n k => m ((c.tc : Thread nD τ).loc main_arg0) (ix2 n k)
abbrev labels (c : Dev nD) : Fin 4194304 → BitVec 32 := fun n => m ((c.tc : Thread nD τ).loc main_arg1) (ix1 n)

/-- The region finds the logits transposed, -/
theorem entry_logits (c : Dev nD) : (V m c main_v0 : S8x4194304.Idx → EReal)
    = transpose S8x4194304 [1, 0] (m ((c.tc : Thread nD τ).loc main_arg0)) transposes_S4194304x8_S8x4194304_1_0 := by
  show StableHlo.after hostOps0 (fun b => m (c, b)) (Proc.devRef .tc main_v0) = _
  after_results

/-- and the labels as one row. -/
theorem entry_labels (c : Dev nD) : (V m c main_v1 : S1x4194304.Idx → BitVec 32)
    = shapeCast S1x4194304 (m ((c.tc : Thread nD τ).loc main_arg1)) shapeCasts_S4194304_S1x4194304 := by
  show StableHlo.after hostOps0 (fun b => m (c, b)) (Proc.devRef .tc main_v1) = _
  after_results
  rfl

/-- Point `t`'s two input blocks, named at their literal types. -/
abbrev xblk (c : Dev nD) (t : Fin cfg0.N) : Vec Ideal S8x65536 .f32 := iblk m c 0 t
abbrev lblk (c : Dev nD) (t : Fin cfg0.N) : Vec Ideal S1x65536 .i32 := iblk m c 1 t

/-- Point `t` reads block `t` of the tokens. -/
def blockOf (t : Fin cfg0.N) : Fin 64 := ⟨t.val, lt_of_lt_of_eq t.isLt (show cfg0.N = 64 from N_0)⟩

/-- Both input windows sit at block (0, t) at point `t`. -/
theorem index_logits : ∀ t : Fin cfg0.N, win0_0.index t 0 = 0 ∧ win0_0.index t 1 = t.val :=
  (by decide +kernel : ∀ t : Fin grid0.N, win0_0.index t 0 = 0 ∧ win0_0.index t 1 = t.val)
theorem index_labels : ∀ t : Fin cfg0.N, win0_1.index t 0 = 0 ∧ win0_1.index t 1 = t.val :=
  (by decide +kernel : ∀ t : Fin grid0.N, win0_1.index t 0 = 0 ∧ win0_1.index t 1 = t.val)

/-- Entry (k, l) of point `t`'s logits block is expert `k`'s logit of token `l` of block `t`. -/
theorem xblk_apply (c : Dev nD) (t : Fin cfg0.N) (k : Fin 8) (l : Fin 65536) :
    xblk m c t (ix2 k l) = logits m c (Cert.Spec.tokB (blockOf t) l) k := by
  show iblk m c 0 t (ix2 k l) = _
  unfold iblk
  rw [View.read_apply]
  show (V m c main_v0 : S8x4194304.Idx → EReal) _ = _
  rw [entry_logits]
  refine (transpose_apply [1, 0] _ transposes_S4194304x8_S8x4194304_1_0 _ (ix2 (Cert.Spec.tokB (blockOf t) l) k) ?_).trans rfl
  intro b
  match b with
  | ⟨0, _⟩ =>
    show k.val = win0_0.index t 0 * 8 + 1 * k.val
    rw [(index_logits t).1]; omega
  | ⟨1, _⟩ =>
    show (Cert.Spec.tokB (blockOf t) l).val = win0_0.index t 1 * 65536 + 1 * l.val
    rw [(index_logits t).2]; show t.val * 65536 + l.val = _; omega

/-- Entry (0, l) of point `t`'s labels block is the label word of token `l` of block `t`. -/
theorem lblk_apply (c : Dev nD) (t : Fin cfg0.N) (l : Fin 65536) :
    lblk m c t (ix2 (0 : Fin 1) l) = labels m c (Cert.Spec.tokB (blockOf t) l) := by
  show iblk m c 1 t (ix2 (0 : Fin 1) l) = _
  unfold iblk
  rw [View.read_apply]
  show (V m c main_v1 : S1x4194304.Idx → BitVec 32) _ = _
  rw [entry_labels]
  refine (shapeCast_apply _ shapeCasts_S4194304_S1x4194304 _ (ix1 (Cert.Spec.tokB (blockOf t) l)) ?_).trans rfl
  rw [Shape.rowMajor_val_one, Shape.rowMajor_val_two]
  show (Cert.Spec.tokB (blockOf t) l).val = (win0_1.index t 0 * 1 + 1 * 0) * 4194304 + (win0_1.index t 1 * 65536 + 1 * l.val)
  rw [(index_labels t).1, (index_labels t).2]; show t.val * 65536 + l.val = _; omega

/-- Block `b`'s share of the segment sums (nothing past the 64 blocks). -/
def share (c : Dev nD) (b : ℕ) (t e : Fin 8) : EReal :=
  if h : b < 64 then Cert.Spec.blockSum (logits m c) (labels m c) ⟨b, h⟩ t e else 0

theorem share_point (c : Dev nD) (T : Fin cfg0.N) (t e : Fin 8) :
    share m c T.val t e = Cert.Spec.blockSum (logits m c) (labels m c) (blockOf T) t e := by
  unfold share
  rw [dif_pos (lt_of_lt_of_eq T.isLt (show cfg0.N = 64 from N_0))]
  rfl

/-- The accumulation step at point `T` adds block `T`'s share to every entry. -/
theorem step_point (c : Dev nD) (T : Fin cfg0.N) (acc : Vec Ideal S8x8 .f32) (t e : Fin 8) :
    k0_pay2 (F := Ideal) (xblk m c T) (lblk m c T) acc (ix2 t e) = acc (ix2 t e) + share m c T.val t e := by
  rw [Cert.KernelIdeal.Pay.step_apply, share_point]
  unfold Cert.Spec.blockSum
  refine congrArg (acc (ix2 t e) + ·) (Finset.sum_congr rfl fun l _ => ?_)
  rw [lblk_apply]
  simp only [xblk_apply]

/-- After a resetting point the accumulator holds that block's share alone. -/
theorem point_reset (c : Dev nD) (T : Fin cfg0.N) (h0 : T.val % 32 = 0) (t e : Fin 8) :
    (outsAt0 m c T.val T.isLt).2 (ix2 t e) = share m c T.val t e := by
  have h1 : ¬T.val % 32 = 31 := by omega
  rw [outsAt0_A m c T h0 h1]
  dsimp only
  refine (congrFun (Cert.KernelIdeal.Body.acc_reset (F := Ideal) c (grid0.coords T) (ms0_0 T) (hs0_0 T) (ms0_1 T) (hs0_1 T) (ms0_2 T) (hs0_2 T) scM0_0 (Memref.isWhole_whole _) ((hcond0_0 T).mpr h0) (fun h => h1 ((hcond0_1 T).mp h)) (xblk m c T) (lblk m c T)) (ix2 t e)).trans ?_
  rw [step_point, Cert.KernelIdeal.Pay.zero_apply, zero_add]

/-- After any other point it holds what the point before left plus this block's share. -/
theorem point_step (c : Dev nD) (T : Fin cfg0.N) (h0 : ¬T.val % 32 = 0) (t e : Fin 8) :
    (outsAt0 m c T.val T.isLt).2 (ix2 t e)
      = (outsAt0 m c (T.val - 1) (Nat.lt_of_le_of_lt (Nat.sub_le _ _) T.isLt)).2 (ix2 t e) + share m c T.val t e := by
  by_cases h1 : T.val % 32 = 31
  · rw [outsAt0_C m c T h0 h1]
    dsimp only
    refine (congrFun (Cert.KernelIdeal.Body.acc_last (F := Ideal) c (grid0.coords T) (ms0_0 T) (hs0_0 T) (ms0_1 T) (hs0_1 T) (ms0_2 T) (hs0_2 T) scM0_0 (Memref.isWhole_whole _) (fun h => h0 ((hcond0_0 T).mp h)) ((hcond0_1 T).mpr h1) (xblk m c T) (lblk m c T) (outsAt0 m c (T.val - 1) (Nat.lt_of_le_of_lt (Nat.sub_le _ _) T.isLt)).2) (ix2 t e)).trans ?_
    rw [step_point]
  · rw [outsAt0_B m c T h0 h1]
    dsimp only
    refine (congrFun (Cert.KernelIdeal.Body.acc_step (F := Ideal) c (grid0.coords T) (ms0_0 T) (hs0_0 T) (ms0_1 T) (hs0_1 T) (ms0_2 T) (hs0_2 T) scM0_0 (Memref.isWhole_whole _) (fun h => h0 ((hcond0_0 T).mp h)) (fun h => h1 ((hcond0_1 T).mp h)) (xblk m c T) (lblk m c T) (outsAt0 m c (T.val - 1) (Nat.lt_of_le_of_lt (Nat.sub_le _ _) T.isLt)).2) (ix2 t e)).trans ?_
    rw [step_point]

/-- The last point of a half leaves the accumulator's entries in its output block. -/
theorem point_out (c : Dev nD) (T : Fin cfg0.N) (h1 : T.val % 32 = 31) (t e : Fin 8) :
    (outsAt0 m c T.val T.isLt).1 (ix3 (0 : Fin 1) t e) = (outsAt0 m c T.val T.isLt).2 (ix2 t e) := by
  have h0 : ¬T.val % 32 = 0 := by omega
  rw [outsAt0_C m c T h0 h1]
  dsimp only
  refine (congrFun (Cert.KernelIdeal.Body.out_last (F := Ideal) c (grid0.coords T) (ms0_0 T) (hs0_0 T) (ms0_1 T) (hs0_1 T) (ms0_2 T) (hs0_2 T) scM0_0 (Memref.isWhole_whole _) (fun h => h0 ((hcond0_0 T).mp h)) ((hcond0_1 T).mpr h1) (xblk m c T) (lblk m c T) (outsAt0 m c (T.val - 1) (Nat.lt_of_le_of_lt (Nat.sub_le _ _) T.isLt)).2) (ix3 (0 : Fin 1) t e)).trans ?_
  rw [Cert.KernelIdeal.Pay.recast_apply]
  exact (congrFun (Cert.KernelIdeal.Body.acc_last (F := Ideal) c (grid0.coords T) (ms0_0 T) (hs0_0 T) (ms0_1 T) (hs0_1 T) (ms0_2 T) (hs0_2 T) scM0_0 (Memref.isWhole_whole _) (fun h => h0 ((hcond0_0 T).mp h)) ((hcond0_1 T).mpr h1) (xblk m c T) (lblk m c T) (outsAt0 m c (T.val - 1) (Nat.lt_of_le_of_lt (Nat.sub_le _ _) T.isLt)).2) (ix2 t e)).symm

/-- So after point `n` the accumulator holds the shares of the blocks from the half's first up to `n`. -/
theorem acc_eq (c : Dev nD) : ∀ (n : ℕ) (hn : n < cfg0.N) (t e : Fin 8),
    (outsAt0 m c n hn).2 (ix2 t e) = ∑ g ∈ Finset.range (n % 32 + 1), share m c (n - n % 32 + g) t e := by
  intro n
  induction n with
  | zero =>
    intro hn t e
    rw [point_reset m c ⟨0, hn⟩ rfl t e]
    simp
  | succ n ih =>
    intro hn t e
    by_cases h0 : (n + 1) % 32 = 0
    · rw [point_reset m c ⟨n + 1, hn⟩ h0 t e, h0]
      simp
    · rw [point_step m c ⟨n + 1, hn⟩ h0 t e]
      show (outsAt0 m c n _).2 (ix2 t e) + _ = _
      rw [ih (Nat.lt_of_succ_lt hn) t e]
      have e1 : (n + 1) % 32 = n % 32 + 1 := by omega
      have e2 : n + 1 - (n % 32 + 1) = n - n % 32 := by omega
      rw [e1, e2, Finset.sum_range_succ _ (n % 32 + 1)]
      congr 2
      show n + 1 = n - n % 32 + (n % 32 + 1)
      omega

/-- What the 2×8×8 result ends holding: row `h` has the shares of the 32 blocks of half `h`. -/
def outG (c : Dev nD) : S2x8x8.Idx → EReal := fun i =>
  ∑ g ∈ Finset.range 32, share m c ((i 0).val * 32 + g) ⟨(i 1).val, (i 1).isLt⟩ ⟨(i 2).val, (i 2).isLt⟩

/-- The output window sits at block (t / 32, 0, 0) at point `t`. -/
theorem index_out : ∀ t : Fin cfg0.N, win0_2.index t 0 = t.val / 32 ∧ win0_2.index t 1 = 0 ∧ win0_2.index t 2 = 0 :=
  (by decide +kernel : ∀ t : Fin grid0.N, win0_2.index t 0 = t.val / 32 ∧ win0_2.index t 1 = 0 ∧ win0_2.index t 2 = 0)

/-- What a half's last point writes back is that half's row of `outG`. -/
theorem flushed_eq (c : Dev nD) (T : Fin cfg0.N) (hf : (cfg0.win 2).flush T = true) :
    (dats m 0 c).flushed 2 T = ((cfg0.win 2).blk T).view.read (Elt Ideal) (outG m c) := by
  have h31 : T.val % 32 = 31 := (flush0_2 T).mp hf
  show (cfg0.win 2).cut (grid0.coords T) ((dats m 0 c).after 2 T) = _
  rw [after0_2]
  funext y
  show (outsAt0 m c T.val T.isLt).1 y = outG m c (((cfg0.win 2).blk T).view.emb y)
  obtain ⟨y0, p, q, rfl⟩ : ∃ (y0 : Fin 1) (p q : Fin 8), y = ix3 y0 p q := ⟨y 0, y 1, y 2, eq_ix3 (n0 := 1) (n1 := 8) (n2 := 8) y⟩
  obtain rfl : y0 = 0 := Subsingleton.elim _ _
  rw [point_out m c T h31, acc_eq m c T.val T.isLt, h31]
  unfold outG
  have c0 : ((((cfg0.win 2).blk T).view.emb (ix3 (0 : Fin 1) p q)) 0).val = T.val / 32 := by
    show win0_2.index T 0 * 1 + 1 * 0 = _
    rw [(index_out T).1]; omega
  have c1 : ((((cfg0.win 2).blk T).view.emb (ix3 (0 : Fin 1) p q)) 1).val = p.val := by
    show win0_2.index T 1 * 8 + 1 * p.val = _
    rw [(index_out T).2.1]; omega
  have c2 : ((((cfg0.win 2).blk T).view.emb (ix3 (0 : Fin 1) p q)) 2).val = q.val := by
    show win0_2.index T 2 * 8 + 1 * q.val = _
    rw [(index_out T).2.2]; omega
  refine Finset.sum_congr rfl fun g _ => ?_
  simp only [c0, c1, c2]
  have e : T.val - 31 = T.val / 32 * 32 := by omega
  rw [e]

/-- An entry of the result is in point `T`'s block iff each coordinate is in the block's range on its axis. -/
theorem mem_blk (T : Fin cfg0.N) (i : S2x8x8.Idx) :
    i ∈ ((cfg0.win 2).blk T).view.set ↔ ∀ a : Fin 3, win0_2.index T a * S1x8x8.size a ≤ (i a).val ∧ (i a).val < win0_2.index T a * S1x8x8.size a + S1x8x8.size a := by
  show i ∈ ((View.whole main_v2).slice (win0_2.rect T)).set ↔ _
  rw [View.set_slice_whole, Rect.mem_set_unit]
  exact Iff.rfl

/-- The two halves' last points cover the result, so it ends holding `outG`. -/
theorem final_out (c : Dev nD) : (dats m 0 c).arrAt 2 cfg0.N = outG m c :=
  (dats m 0 c).arrAt_eq_of_cover 2 (outG m c) (flushed_eq m c) fun i => by
    have hi0 : (i 0).val < 2 := (i 0).isLt
    have hi1 : (i 1).val < 8 := (i 1).isLt
    have hi2 : (i 2).val < 8 := (i 2).isLt
    have hN : cfg0.N = 64 := N_0
    let T : Fin cfg0.N := ⟨(i 0).val * 32 + 31, by omega⟩
    have hT : T.val = (i 0).val * 32 + 31 := rfl
    refine ⟨T, (flush0_2 T).mpr (by rw [hT]; omega), ?_⟩
    rw [mem_blk]
    obtain ⟨e0, e1, e2⟩ := index_out T
    intro a
    match a with
    | ⟨0, _⟩ =>
      show win0_2.index T 0 * 1 ≤ (i 0).val ∧ (i 0).val < win0_2.index T 0 * 1 + 1
      rw [e0, hT]; omega
    | ⟨1, _⟩ =>
      show win0_2.index T 1 * 8 ≤ (i 1).val ∧ (i 1).val < win0_2.index T 1 * 8 + 8
      rw [e1]; omega
    | ⟨2, _⟩ =>
      show win0_2.index T 2 * 8 ≤ (i 2).val ∧ (i 2).val < win0_2.index T 2 * 8 + 8
      rw [e2]; omega

/-- Read at an entry: row `h`, task `t`, expert `e`. -/
theorem final_out_apply (c : Dev nD) (h : Fin 2) (t e : Fin 8) :
    (dats m 0 c).arrAt 2 cfg0.N (ix3 h t e) = ∑ g ∈ Finset.range 32, share m c (h.val * 32 + g) t e := by
  rw [final_out]
  rfl

end Cert.KernelIdeal.Acc

end
-- ==== Proof.Result.lean ====
/-
  The two tables both programs hand to the shared chain, as functions of the launched logits and label words:
  entry (t, e) of the first is the segment sum, entry t of the second the count.
-/
import proofs.«410063_j17334488007391_2_alg».proof.Proof.Spec

noncomputable section

namespace Cert.Spec

open Idealize.ShloMosaic

/-- The 8×8 table of segment sums. -/
def segTable (X : Fin 4194304 → Fin 8 → EReal) (L : Fin 4194304 → BitVec 32) : FVec Ideal T88 .f32 :=
  fun j => segSum X L ⟨(j 0).val, (j 0).isLt⟩ ⟨(j 1).val, (j 1).isLt⟩

/-- The eight counts. -/
def cntTable (L : Fin 4194304 → BitVec 32) : FVec Ideal T8 .f32 :=
  fun j => segCnt L ⟨(j 0).val, (j 0).isLt⟩

end Cert.Spec

end
-- ==== Proof.Sums.lean ====
/-
  Sums over tokens, over the extended reals: a softmax row of finite logits adds up to one, so the expert-sum of a
  task's segment sums is the task's token count; and the 64 blocks of 65536 tokens, taken 32 and 32, exhaust the tokens.
-/
import proofs.«410063_j17334488007391_2_alg».proof.Proof.Spec

noncomputable section

namespace Cert.Spec

open Idealize.ShloMosaic

/-- The word of −∞ denotes the bottom of the extended reals. -/
theorem ofBits_negInf : Ideal.ofBits .f32 0xFF800000#32 = (⊥ : EReal) := by
  simp [Ideal.ofBits, Ideal.ieee]

/-- A finite sum of real numbers, read in the extended reals, is the sum of their readings. -/
theorem coe_sum_real {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The fold of `max` from −∞ over real values is −∞ or a real number. -/
theorem fold_max_real (s : Finset (Fin 8)) (r : Fin 8 → ℝ) :
    s.fold max (⊥ : EReal) (fun k => (r k : EReal)) = ⊥
      ∨ ∃ m : ℝ, s.fold max (⊥ : EReal) (fun k => (r k : EReal)) = (m : EReal) := by
  classical
  induction s using Finset.induction_on with
  | empty => left; simp
  | insert a s ha ih =>
    right
    rw [Finset.fold_insert ha]
    rcases ih with h0 | ⟨m, hm⟩
    · exact ⟨r a, by rw [h0]; simp⟩
    · exact ⟨max (r a) m, by rw [hm]; exact (EReal.coe_strictMono.monotone.map_max).symm⟩

/-- The row maximum of real logits is a real number. -/
theorem rowMax_real (r : Fin 8 → ℝ) : ∃ m : ℝ, rowMax (fun k => (r k : EReal)) = (m : EReal) := by
  unfold rowMax
  rw [ofBits_negInf]
  rcases fold_max_real Finset.univ r with h0 | h1
  · exfalso
    have hle : ((r 0 : ℝ) : EReal) ≤ (Finset.univ : Finset (Fin 8)).fold max (⊥ : EReal) (fun k => (r k : EReal)) :=
      (Finset.le_fold_max _).mpr (Or.inr ⟨0, Finset.mem_univ _, le_refl _⟩)
    rw [h0] at hle
    exact absurd (le_bot_iff.mp hle) (EReal.coe_ne_bot _)
  · exact h1

/-- Finite logits: the eight softmax probabilities of a token add up to one. -/
theorem sm_sum_one (X : Fin 8 → EReal) (h : ∀ k, ∃ r : ℝ, X k = (r : EReal)) : ∑ e : Fin 8, sm X e = 1 := by
  choose r hr using h
  obtain rfl : X = fun k => (r k : EReal) := funext hr
  obtain ⟨m, hm⟩ := rowMax_real r
  -- each numerator is the real number exp (rₖ − m)
  have hnum : ∀ k : Fin 8, Ideal.exp ((r k : EReal) - rowMax (fun k => (r k : EReal))) = ((Real.exp (r k - m) : ℝ) : EReal) := by
    intro k
    rw [hm, ← EReal.coe_sub]
    rfl
  -- the denominator is their (positive) real sum
  have hden : (∑ k : Fin 8, Ideal.exp ((r k : EReal) - rowMax (fun k => (r k : EReal))))
      = ((∑ k : Fin 8, Real.exp (r k - m) : ℝ) : EReal) := by
    rw [coe_sum_real]
    exact Finset.sum_congr rfl (fun k _ => hnum k)
  have hpos : 0 < ∑ k : Fin 8, Real.exp (r k - m) :=
    Finset.sum_pos (fun k _ => Real.exp_pos _) Finset.univ_nonempty
  have hterm : ∀ e : Fin 8, sm (fun k => (r k : EReal)) e
      = ((Real.exp (r e - m) * (1 / ∑ k : Fin 8, Real.exp (r k - m)) : ℝ) : EReal) := by
    intro e
    unfold sm
    rw [hden, hnum e, Ideal.div_coe (ne_of_gt hpos), ← EReal.coe_mul]
  calc ∑ e : Fin 8, sm (fun k => (r k : EReal)) e
      = ∑ e : Fin 8, ((Real.exp (r e - m) * (1 / ∑ k : Fin 8, Real.exp (r k - m)) : ℝ) : EReal) :=
        Finset.sum_congr rfl (fun e _ => hterm e)
    _ = ((∑ e : Fin 8, Real.exp (r e - m) * (1 / ∑ k : Fin 8, Real.exp (r k - m)) : ℝ) : EReal) :=
        (coe_sum_real _ _).symm
    _ = ((1 : ℝ) : EReal) := by
        rw [← Finset.sum_mul, mul_one_div, div_self (ne_of_gt hpos)]
    _ = 1 := EReal.coe_one

/-- So, for finite logits, a task's segment sums added over the experts count the task's tokens. -/
theorem segCnt_eq (X : Fin 4194304 → Fin 8 → EReal) (L : Fin 4194304 → BitVec 32)
    (h : ∀ n k, ∃ r : ℝ, X n k = (r : EReal)) (t : Fin 8) : ∑ e : Fin 8, segSum X L t e = segCnt L t := by
  unfold segSum segCnt
  rw [Finset.sum_comm]
  refine Finset.sum_congr rfl (fun n _ => ?_)
  by_cases hc : L n = BitVec.ofNat 32 t.val
  · simp only [if_pos hc]
    exact sm_sum_one (X n) (h n)
  · simp only [if_neg hc]
    exact Finset.sum_const_zero

/-- Block and offset against token number: `n ↦ (n / 65536, n % 65536)` inverts `tokB`. -/
def tokEquiv : Fin 64 × Fin 65536 ≃ Fin 4194304 where
  toFun p := tokB p.1 p.2
  invFun n := (⟨n.val / 65536, by have := n.isLt; omega⟩, ⟨n.val % 65536, by omega⟩)
  left_inv := by
    rintro ⟨b, l⟩
    have hb := b.isLt
    have hl := l.isLt
    refine Prod.ext (Fin.ext ?_) (Fin.ext ?_)
    · show (b.val * 65536 + l.val) / 65536 = b.val
      omega
    · show (b.val * 65536 + l.val) % 65536 = l.val
      omega
  right_inv := by
    intro n
    refine Fin.ext ?_
    show n.val / 65536 * 65536 + n.val % 65536 = n.val
    omega

/-- A sum over all tokens is the sum over the 64 blocks of the sums over each block's 65536 tokens. -/
theorem sum_tokens_blocks (f : Fin 4194304 → EReal) :
    ∑ n : Fin 4194304, f n = ∑ b : Fin 64, ∑ l : Fin 65536, f (tokB b l) := by
  rw [← Equiv.sum_comp tokEquiv f, Fintype.sum_prod_type]
  rfl

/-- The first 32 blocks' shares plus the last 32 blocks' shares are the whole segment sum. -/
theorem segSum_blocks (X : Fin 4194304 → Fin 8 → EReal) (L : Fin 4194304 → BitVec 32) (t e : Fin 8) :
    (∑ g : Fin 32, blockSum X L ⟨g.val, by have := g.isLt; omega⟩ t e)
      + (∑ g : Fin 32, blockSum X L ⟨32 + g.val, by have := g.isLt; omega⟩ t e) = segSum X L t e := by
  have hsplit : ∑ b : Fin 64, blockSum X L b t e
      = (∑ g : Fin 32, blockSum X L ⟨g.val, by have := g.isLt; omega⟩ t e)
        + (∑ g : Fin 32, blockSum X L ⟨32 + g.val, by have := g.isLt; omega⟩ t e) :=
    Fin.sum_univ_add (a := 32) (b := 32) (fun b : Fin 64 => blockSum X L b t e)
  rw [← hsplit]
  unfold segSum blockSum
  exact (sum_tokens_blocks (fun n => if L n = BitVec.ofNat 32 t.val then sm (X n) e else 0)).symm

end Cert.Spec

end
-- ==== Proof.KRun.lean ====
/-
  The kernel's program after its one region: the host adds the result's two rows into the 8×8 table of segment
  sums, takes the table's row sums as the counts, and applies the shared chain. With the region's result read off
  the accumulation, the program's run ends at the shared chain of the segment sums and of their row sums.
-/
import proofs.«410063_j17334488007391_2_alg».proof.Proof.KAcc
import proofs.«410063_j17334488007391_2_alg».proof.Proof.Result
import proofs.«410063_j17334488007391_2_alg».proof.Proof.Sums
import Idealize.ShloMosaic.Lib.StableHlo.Run
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Run

open Cert.KernelIdeal Cert.KernelIdeal.Gen

/-- The shared chain's shape relations, from the kernel program's own. -/
theorem tf : Cert.Spec.TailFacts :=
  ⟨reducesTo_S8x8_S8_d1, reducesTo_S8x8_S8_d0, reducesTo_S8x8_S_d0_1, h_S_, bcast_S8_S8x1_0, bcast_S8x1_S8x8_0_1, bcast_S_S8x8,
    bcast_S_S8x1, bcast_S8_S1x8_1, bcast_S_S1x8, bcast_S1x8_S8x8_0_1⟩

section AnyF
variable {F : FTy → Type} [FloatOps F]

/-- The result's two rows, added. -/
def segOf (out : FVec F S2x8x8 .f32) : FVec F S8x8 .f32 :=
  addf (shapeCast S8x8 (extractStridedSlice S1x8x8 ![0, 0, 0] out slices_S2x8x8_S1x8x8_0_0_0) shapeCasts_S1x8x8_S8x8)
    (shapeCast S8x8 (extractStridedSlice S1x8x8 ![1, 0, 0] out slices_S2x8x8_S1x8x8_1_0_0) shapeCasts_S1x8x8_S8x8)

/-- A table's row sums. -/
def cntOf (seg : FVec F S8x8 .f32) : FVec F S8 .f32 :=
  Host.reduceAdd seg (constant S_ .f32 0x00000000#32) reducesTo_S8x8_S8_d1 h_S_

set_option maxRecDepth 8192 in
set_option maxHeartbeats 24000000 in
/-- The host operations after the region, from any contents of the result array: the shared chain of the two rows'
    sum and of its row sums. -/
theorem tail_of (W : Valuation τ sig (Elt F)) :
    StableHlo.after hostOps1 W (Proc.devRef .tc main_v35)
      = Cert.Spec.tail tf (segOf (W (Proc.devRef .tc main_v2))) (cntOf (segOf (W (Proc.devRef .tc main_v2)))) := by
  after_results
  rfl

end AnyF

section AtIdeal

variable (m : (ℓ : Loc nD τ sig) → Buf (Elt Ideal) ℓ) (ρ : Dev nD → PrngReg)

open Cert.KernelIdeal.Acc (logits labels)

/-- The two rows' sum at an entry. -/
theorem segOf_apply (out : FVec Ideal S2x8x8 .f32) (t e : Fin 8) :
    segOf out (ix2 t e) = out (ix3 (0 : Fin 2) t e) + out (ix3 (1 : Fin 2) t e) := by
  unfold segOf
  rw [addf_apply]
  congr 1
  · refine (shapeCast_apply _ shapeCasts_S1x8x8_S8x8 _ (ix3 (0 : Fin 1) t e) ?_).trans ?_
    · rw [Shape.rowMajor_val_three, Shape.rowMajor_val_two]
      show (0 * 8 + t.val) * 8 + e.val = t.val * 8 + e.val
      omega
    · exact extractStridedSlice_apply _ _ _ _ (ix3 (0 : Fin 2) t e) (fun a => by
        match a with
        | ⟨0, _⟩ => rfl
        | ⟨1, _⟩ => show t.val = 0 + t.val; omega
        | ⟨2, _⟩ => show e.val = 0 + e.val; omega)
  · refine (shapeCast_apply _ shapeCasts_S1x8x8_S8x8 _ (ix3 (0 : Fin 1) t e) ?_).trans ?_
    · rw [Shape.rowMajor_val_three, Shape.rowMajor_val_two]
      show (0 * 8 + t.val) * 8 + e.val = t.val * 8 + e.val
      omega
    · exact extractStridedSlice_apply _ _ _ _ (ix3 (1 : Fin 2) t e) (fun a => by
        match a with
        | ⟨0, _⟩ => rfl
        | ⟨1, _⟩ => show t.val = 0 + t.val; omega
        | ⟨2, _⟩ => show e.val = 0 + e.val; omega)

/-- A table's row sum at a row. -/
theorem cntOf_apply (seg : FVec Ideal S8x8 .f32) (t : Fin 8) :
    cntOf seg (ix1 t) = ∑ e : Fin 8, seg (ix2 t e) := by
  unfold cntOf
  simp only [Host.reduceAdd, Ideal.hostReduceAdd_def]
  rw [Ideal.hostReduceAdd_single reducesTo_S8x8_S8_d1 (by decide)]
  show Ideal.ofBits .f32 0x00000000#32 + _ = _
  rw [Ideal.ofBits_zero_f32, zero_add]
  refine Finset.sum_congr rfl fun k _ => ?_
  exact congrArg seg (funext fun a => Fin.ext (by match a with | ⟨0, _⟩ => rfl | ⟨1, _⟩ => rfl))

/-- The two rows of the region's result add up to the table of segment sums. -/
theorem seg_value (c : Dev nD) :
    segOf ((dats m 0 c).arrAt 2 cfg0.N) = Cert.Spec.segTable (logits m c) (labels m c) := by
  funext j
  obtain ⟨t, e, rfl⟩ : ∃ (t e : Fin 8), j = ix2 t e := ⟨j 0, j 1, eq_ix2 j⟩
  rw [segOf_apply, Cert.KernelIdeal.Acc.final_out_apply, Cert.KernelIdeal.Acc.final_out_apply]
  show _ = Cert.Spec.segSum (logits m c) (labels m c) t e
  rw [← Cert.Spec.segSum_blocks]
  congr 1

/-- For finite logits the table's row sums are the counts. -/
theorem cnt_value (c : Dev nD) (hfin : ∀ n k, ∃ r : ℝ, logits m c n k = (r : EReal)) :
    cntOf (Cert.Spec.segTable (logits m c) (labels m c)) = Cert.Spec.cntTable (labels m c) := by
  funext j
  obtain ⟨t, rfl⟩ : ∃ t : Fin 8, j = ix1 t := ⟨j 0, eq_ix1 j⟩
  rw [cntOf_apply]
  exact Cert.Spec.segCnt_eq (logits m c) (labels m c) hfin t

/-- What the program's result ends holding, for finite logits. -/
theorem tail_value (c : Dev nD) (hfin : ∀ n k, ∃ r : ℝ, logits m c n k = (r : EReal)) :
    Pipeline.afterTail₀ cfgs (dats m) 0 (V0 m) [hostOps1] c main_v35
      = Cert.Spec.tail (F := Ideal) tf (Cert.Spec.segTable (logits m c) (labels m c)) (Cert.Spec.cntTable (labels m c)) := by
  unfold Pipeline.afterTail₀
  simp only [List.flatten_cons, List.flatten_nil, List.append_nil]
  refine (tail_of _).trans ?_
  rw [Pipeline.withArrays_arr spec0 launch0.win.arr_inj c _ _ 2, seg_value, cnt_value m c hfin]

/-- The kernel program's run, read: for finite logits every weakly fair execution ends with the result at the shared
    chain of the segment sums and the counts, the arguments unchanged. -/
theorem run (hfin : ∀ (c : Dev nD) n k, ∃ r : ℝ, logits m c n k = (r : EReal)) :
    θ_run defs (onTc (τ := τ) (main (F := Ideal))) ⟨m, fun _ => 0, ρ⟩ fun r => ∀ c : Dev nD,
      r.2.mem ((c.tc : Thread nD τ).loc main_v35)
        = Cert.Spec.tail (F := Ideal) tf (Cert.Spec.segTable (logits m c) (labels m c)) (Cert.Spec.cntTable (labels m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v35 (Pipeline.mem_restRefs_of main_v35 (by decide) (by decide))).trans (tail_value m c (hfin c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end AtIdeal

end Cert.KernelIdeal.Run

end
-- ==== Proof.RefScatter.lean ====
/-
  The host's accumulating scatter of this program's two shapes, read at an entry over the extended reals. Update row
  `n` goes to the table row its index word names, read signed; a word that is no row index 0..7 lands outside the
  table and contributes nothing. So entry (t, e) of the 8×8 scatter is the operand's entry plus the updates' column
  `e` summed over the rows `n` whose word is `t`, and entry `t` of the length-8 scatter likewise.
-/
import proofs.«410063_j17334488007391_2_alg».proof.Proof.Gen.ReferenceIdeal
import Idealize.ShloMosaic.PureOps.Ideal
import Idealize.ShloMosaic.Lib.ValueIdx
import Idealize.ShloMosaic.Lib.ValueIdxRank1

noncomputable section

open Idealize.ShloMosaic Idealize.ShloMosaic.ValueIdx

namespace Cert.ReferenceIdeal.Scatter

open Cert.ReferenceIdeal Cert.ReferenceIdeal.Gen

/-! ## Where an update lands, for any scatter -/

/-- An update lands on operand index `i` exactly when its start plus its window coordinate is `i`'s coordinate on
    every axis: the in-range test of the landing index is then `i`'s own range, and a sum that is some coordinate of
    `i` is nonnegative, so truncating it to a natural loses nothing. -/
theorem resultIdx?_eq_some_iff {s si u : Shape} (d : ScatterDims s si u) {w : Nat} (j : u.Idx) (idx : IVec si w) (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hf a
      have h1 := congrArg Fin.val (congrFun hf a)
      have h2 := h a
      simp only at h1
      omega
    · intro hi
      funext a
      apply Fin.ext
      have h1 := hi a
      show (d.start j idx a + (d.window j a : ℤ)).toNat = (i a).val
      omega
  · rename_i h
    constructor
    · intro hf; cases hf
    · intro hi
      exfalso
      apply h
      intro a
      have h1 := hi a
      have h2 := (i a).isLt
      omega

/-- A 32-bit word read signed is the row number `t` below 8 exactly when it is the word `t`: the word `t` reads
    signed as `t` (it is far below 2^31), and the signed reading is injective. -/
theorem toInt_eq_iff (w : BitVec 32) (t : Fin 8) : w.toInt = (t.val : ℤ) ↔ w = BitVec.ofNat 32 t.val := by
  have h : ∀ t : Fin 8, (BitVec.ofNat 32 t.val).toInt = (t.val : ℤ) := by decide
  rw [← BitVec.toInt_inj, h]

/-! ## The 8×8 scatter: operand axis 0 is indexed, axis 1 carries the updates' axis 1 -/

/-- Update index `j` reads its one start component at row `j 0` of the index column. -/
theorem siIdx_seg (j : S4194304x8.Idx) (c : Fin scatter_S8x8_S4194304x1_S4194304x8_1_0_0_1.scatterDimsToOperandDims.length) :
    scatter_S8x8_S4194304x1_S4194304x8_1_0_0_1.siIdx j c = ix2 (j 0) 0 := by
  funext b
  match b with
  | ⟨0, _⟩ => rfl
  | ⟨1, _⟩ => exact Fin.ext (Nat.lt_one_iff.1 c.isLt)

/-- On operand axis 0 the start is the index word of row `j 0`, read signed. -/
theorem start_seg_0 (j : S4194304x8.Idx) (idx : IVec S4194304x1 32) :
    scatter_S8x8_S4194304x1_S4194304x8_1_0_0_1.start j idx 0 = (idx (ix2 (j 0) 0)).toInt := by
  show (idx (scatter_S8x8_S4194304x1_S4194304x8_1_0_0_1.siIdx j ⟨0, by decide⟩)).toInt = _
  rw [siIdx_seg]
  rfl
/-- Operand axis 1 is not indexed: its start is 0. -/
theorem start_seg_1 (j : S4194304x8.Idx) (idx : IVec S4194304x1 32) :
    scatter_S8x8_S4194304x1_S4194304x8_1_0_0_1.start j idx 1 = 0 := rfl
/-- Operand axis 0 is an inserted axis: its window coordinate is 0. -/
theorem window_seg_0 (j : S4194304x8.Idx) :
    scatter_S8x8_S4194304x1_S4194304x8_1_0_0_1.window j 0 = 0 := rfl
/-- Operand axis 1 takes the updates' axis 1. -/
theorem window_seg_1 (j : S4194304x8.Idx) :
    scatter_S8x8_S4194304x1_S4194304x8_1_0_0_1.window j 1 = (j 1).val := rfl

/-- Update (n, b) lands on (t, e) exactly when row `n`'s word is `t` and `b` is `e`. -/
theorem resultIdx_seg_iff (j : S4194304x8.Idx) (idx : IVec S4194304x1 32) (t e : Fin 8) :
    scatter_S8x8_S4194304x1_S4194304x8_1_0_0_1.resultIdx? j idx = some (ix2 t e)
      ↔ idx (ix2 (j 0) 0) = BitVec.ofNat 32 t.val ∧ (j 1).val = e.val := by
  rw [resultIdx?_eq_some_iff, Fin.forall_fin_two, start_seg_0, start_seg_1, window_seg_0, window_seg_1, ← toInt_eq_iff]
  constructor
  · rintro ⟨h0, h1⟩
    refine ⟨by simpa using h0, ?_⟩
    have : ((j 1).val : ℤ) = (e.val : ℤ) := by simpa using h1
    exact_mod_cast this
  · rintro ⟨h0, h1⟩
    refine ⟨by simpa using h0, ?_⟩
    show (0 : ℤ) + ((j 1).val : ℤ) = (e.val : ℤ)
    rw [h1, zero_add]

/-! ## The length-8 scatter: the one operand axis is indexed, the updates have no window axis -/

/-- Update index `j` reads its one start component at row `j 0` of the index column. -/
theorem siIdx_cnt (j : S4194304.Idx) (c : Fin scatter_S8_S4194304x1_S4194304_n_0_0_1.scatterDimsToOperandDims.length) :
    scatter_S8_S4194304x1_S4194304_n_0_0_1.siIdx j c = ix2 (j 0) 0 := by
  funext b
  match b with
  | ⟨0, _⟩ => rfl
  | ⟨1, _⟩ => exact Fin.ext (Nat.lt_one_iff.1 c.isLt)

/-- On the operand's axis the start is the index word of row `j 0`, read signed. -/
theorem start_cnt_0 (j : S4194304.Idx) (idx : IVec S4194304x1 32) :
    scatter_S8_S4194304x1_S4194304_n_0_0_1.start j idx 0 = (idx (ix2 (j 0) 0)).toInt := by
  show (idx (scatter_S8_S4194304x1_S4194304_n_0_0_1.siIdx j ⟨0, by decide⟩)).toInt = _
  rw [siIdx_cnt]
  rfl
/-- The operand's axis is an inserted axis: its window coordinate is 0. -/
theorem window_cnt_0 (j : S4194304.Idx) :
    scatter_S8_S4194304x1_S4194304_n_0_0_1.window j 0 = 0 := rfl

/-- Update `n` lands on `t` exactly when row `n`'s word is `t`. -/
theorem resultIdx_cnt_iff (j : S4194304.Idx) (idx : IVec S4194304x1 32) (t : Fin 8) :
    scatter_S8_S4194304x1_S4194304_n_0_0_1.resultIdx? j idx = some (ix1 t)
      ↔ idx (ix2 (j 0) 0) = BitVec.ofNat 32 t.val := by
  rw [resultIdx?_eq_some_iff, ← toInt_eq_iff]
  constructor
  · intro h
    have h0 := h 0
    rw [start_cnt_0, window_cnt_0] at h0
    simpa using h0
  · intro h a
    match a with
    | ⟨0, _⟩ =>
      show scatter_S8_S4194304x1_S4194304_n_0_0_1.start j idx 0 + ((scatter_S8_S4194304x1_S4194304_n_0_0_1.window j 0 : ℕ) : ℤ) = _
      rw [start_cnt_0, window_cnt_0]
      simpa using h

/-! ## The two scatters at an entry -/

/-- The 8×8 scatter-add of [4194304, 8] updates at (t, e). -/
theorem seg_scatter_apply (x : S8x8.Idx → EReal) (idx : IVec S4194304x1 32) (upd : S4194304x8.Idx → EReal) (t e : Fin 8) :
    Ideal.hostScatterAdd scatter_S8x8_S4194304x1_S4194304x8_1_0_0_1 x idx upd (ix2 t e)
      = x (ix2 t e) + ∑ n : Fin 4194304,
          if idx (ix2 n (0 : Fin 1)) = BitVec.ofNat 32 t.val then upd (ix2 n e) else 0 := by
  unfold Ideal.hostScatterAdd
  refine congrArg (fun z => _ + z) ?_
  -- the filtered sum over update indices is the double sum over rows and columns of the landing test's `if`
  rw [Finset.sum_filter, sum_idx2]
  refine Finset.sum_congr rfl fun n _ => ?_
  -- within a row only column `e` can land on (t, e)
  have hb : ∀ b : Fin 8,
      (if scatter_S8x8_S4194304x1_S4194304x8_1_0_0_1.resultIdx? (ix2 n b) idx = some (ix2 t e) then upd (ix2 n b) else 0)
        = if b = e then (if idx (ix2 n (0 : Fin 1)) = BitVec.ofNat 32 t.val then upd (ix2 n b) else 0) else 0 := by
    intro b
    rw [if_congr (resultIdx_seg_iff (ix2 n b) idx t e) rfl rfl]
    show (if idx (ix2 n (0 : Fin 1)) = BitVec.ofNat 32 t.val ∧ b.val = e.val then upd (ix2 n b) else 0) = _
    by_cases h1 : b = e
    · by_cases h2 : idx (ix2 n (0 : Fin 1)) = BitVec.ofNat 32 t.val
      · rw [if_pos ⟨h2, congrArg Fin.val h1⟩, if_pos h1, if_pos h2]
      · rw [if_neg (fun h => h2 h.1), if_pos h1, if_neg h2]
    · rw [if_neg (fun h => h1 (Fin.ext h.2)), if_neg h1]
  rw [Finset.sum_congr rfl (fun b _ => hb b), Finset.sum_ite_eq' Finset.univ e, if_pos (Finset.mem_univ e)]

/-- The length-8 scatter-add of [4194304] updates at t. -/
theorem cnt_scatter_apply (x : S8.Idx → EReal) (idx : IVec S4194304x1 32) (upd : S4194304.Idx → EReal) (t : Fin 8) :
    Ideal.hostScatterAdd scatter_S8_S4194304x1_S4194304_n_0_0_1 x idx upd (ix1 t)
      = x (ix1 t) + ∑ n : Fin 4194304,
          if idx (ix2 n (0 : Fin 1)) = BitVec.ofNat 32 t.val then upd (ix1 n) else 0 := by
  unfold Ideal.hostScatterAdd
  refine congrArg (fun z => _ + z) ?_
  -- the filtered sum over update indices is the sum over rows of the landing test's `if`
  rw [Finset.sum_filter, ← Equiv.sum_comp (idxEquiv1 (n := 4194304)).symm]
  refine Finset.sum_congr rfl fun n _ => ?_
  exact if_congr (resultIdx_cnt_iff (ix1 n) idx t) rfl rfl

end Cert.ReferenceIdeal.Scatter

end
-- ==== Proof.RefVal.lean ====
/-
  The reference's run read as values: its last stage is the shared chain applied to its two scatter-adds; the first
  scatter-add, of the softmax rows at the label words, is the segment sum (an update whose label word is no task
  index lands outside the 8×8 table and is dropped), and the second, of ones, the count.
-/
import proofs.«410063_j17334488007391_2_alg».proof.Proof.Gen.ReferenceIdeal.Read
import proofs.«410063_j17334488007391_2_alg».proof.Proof.Spec
import proofs.«410063_j17334488007391_2_alg».proof.Proof.RefScatter
import Idealize.ShloMosaic.Lib.IdealHost

noncomputable section

open Idealize.ShloMosaic Idealize.ShloMosaic.ValueIdx

namespace Cert.ReferenceIdeal.RefValue

open Cert.ReferenceIdeal Cert.ReferenceIdeal.Gen Cert.ReferenceIdeal.Read

/-- The shared chain's shape relations, from the reference's own. -/
theorem tf : Cert.Spec.TailFacts :=
  ⟨reducesTo_S8x8_S8_d1, reducesTo_S8x8_S8_d0, reducesTo_S8x8_S_d0_1, h_S_, bcast_S8_S8x1_0, bcast_S8x1_S8x8_0_1, bcast_S_S8x8,
    bcast_S_S8x1, bcast_S8_S1x8_1, bcast_S_S1x8, bcast_S1x8_S8x8_0_1⟩

/-- The reference's result is the shared chain of its two scatter-adds. -/
theorem result_tail {F : FTy → Type} [FloatOps F] (x0 : (⟨S4194304x8, .f32⟩ : BufTy).Contents (Elt F)) (x1 : (⟨S4194304, .i32⟩ : BufTy).Contents (Elt F)) :
    val_main_v44 (F := F) x0 x1 = Cert.Spec.tail tf (val_main_v13 (F := F) x0 x1) (val_main_v17 (F := F) x1) := by
  unfold val_main_v44 val_main_v43 val_main_v42 val_main_v41 val_main_v40 val_main_v39 val_main_v38 val_main_v37 val_main_v36
    val_main_v35 val_main_v34 val_main_v33 val_main_v32 val_main_v31 val_main_v30 val_main_v29 val_main_v28 val_main_v27
    val_main_v26 val_main_v25 val_main_v24 val_main_v23 val_main_v22 val_main_v21 val_main_v20 val_main_v19 val_main_v18
    val_main_cst_14 val_main_cst_13 val_main_cst_12 val_main_cst_11 val_main_cst_10 val_main_cst_9 val_main_cst_8 val_main_cst_7
    val_main_cst_6 val_main_cst_5 Cert.Spec.tail
  rfl

/-! ### The softmax stage, one operation at a time -/

/-- Under the two broadcasts of a per-token value, entry (n, e) reads token n. -/
theorem idx_rowmax (n : Fin 4194304) (e : Fin 8) : idx_main_v3 (idx_main_v4 (ix2 n e)) = ix1 n := by
  funext a; match a with | ⟨0, _⟩ => rfl

/-- Likewise for the broadcasts of the row sums. -/
theorem idx_rowsum (n : Fin 4194304) (e : Fin 8) : idx_main_v8 (idx_main_v9 (ix2 n e)) = ix1 n := by
  funext a; match a with | ⟨0, _⟩ => rfl

/-- The k-th term of token n's row sum is entry (n, k). -/
theorem idx_term (n : Fin 4194304) (k : Fin 8) : idx_main_v7 (ix1 n) k = ix2 n k := by
  funext a; match a with | ⟨0, _⟩ => rfl | ⟨1, _⟩ => rfl

/-- Entry (n, 0) of the label column reads label n (first scatter-add). -/
theorem idx_label_seg (n : Fin 4194304) : idx_main_v12 (ix2 n (0 : Fin 1)) = ix1 n := by
  funext a; match a with | ⟨0, _⟩ => rfl

/-- Entry (n, 0) of the label column reads label n (second scatter-add). -/
theorem idx_label_cnt (n : Fin 4194304) : idx_main_v16 (ix2 n (0 : Fin 1)) = ix1 n := by
  funext a; match a with | ⟨0, _⟩ => rfl

/-- Dropping axis 1 of the [4194304, 8] logits leaves the tokens. -/
theorem reduces_S4194304x8_S4194304_d1 : S4194304x8.Reduces [1] S4194304 := by decide

/-- The reduce-max over the experts, at token n, is the fold of `max` over its eight logits from −∞. -/
theorem v0_apply (x0 : (⟨S4194304x8, .f32⟩ : BufTy).Contents (Elt Ideal)) (n : Fin 4194304) :
    val_main_v0 (F := Ideal) x0 (ix1 n) = Cert.Spec.rowMax (fun k : Fin 8 => x0 (ix2 n k)) := by
  unfold val_main_v0
  refine (Host.reduce_eq_fold_single (α := Ideal .f32) FloatOps.maximumf x0 _ reducesTo_S4194304x8_S4194304_d1
    reduces_S4194304x8_S4194304_d1 h_S_ (ix1 n)).trans ?_
  have hf : (x0 ∘ reduces_S4194304x8_S4194304_d1.lift (ix1 n)) = (fun k : Fin 8 => x0 (ix2 n k)) := by
    funext k
    exact congrArg x0 (funext fun a => Fin.ext (by match a with | ⟨0, _⟩ => rfl | ⟨1, _⟩ => rfl))
  rw [hf]
  rfl

/-- The maximum against the −∞ splat changes nothing: the fold starts from −∞, so −∞ is below it. -/
theorem v2_apply (x0 : (⟨S4194304x8, .f32⟩ : BufTy).Contents (Elt Ideal)) (n : Fin 4194304) :
    val_main_v2 (F := Ideal) x0 (ix1 n) = Cert.Spec.rowMax (fun k : Fin 8 => x0 (ix2 n k)) := by
  rw [val_main_v2_apply, val_main_v1_apply, val_main_cst_0_apply, v0_apply, Ideal.maximumf_def, Ideal.ofBits_def]
  exact max_eq_right ((Finset.le_fold_max _).2 (Or.inl le_rfl))

/-- The exponential stage at (n, k): exp (xₖ − M) with M the token's row maximum. -/
theorem v6_apply (x0 : (⟨S4194304x8, .f32⟩ : BufTy).Contents (Elt Ideal)) (n : Fin 4194304) (k : Fin 8) :
    val_main_v6 (F := Ideal) x0 (ix2 n k)
      = Ideal.exp (x0 (ix2 n k) - Cert.Spec.rowMax (fun k : Fin 8 => x0 (ix2 n k))) := by
  rw [val_main_v6_apply, val_main_v5_apply, val_main_v4_apply, val_main_v3_apply, idx_rowmax, v2_apply,
    Ideal.hostUnary_exp_def, Ideal.subf_def]

/-- The row sum at token n: the eight exponentials added to the initial 0. -/
theorem v7_apply (x0 : (⟨S4194304x8, .f32⟩ : BufTy).Contents (Elt Ideal)) (n : Fin 4194304) :
    val_main_v7 (F := Ideal) x0 (ix1 n)
      = ∑ k : Fin 8, Ideal.exp (x0 (ix2 n k) - Cert.Spec.rowMax (fun k : Fin 8 => x0 (ix2 n k))) := by
  rw [val_main_v7_apply, val_main_cst_1_apply, Ideal.ofBits_def, Ideal.ofBits_zero_f32, zero_add]
  exact Finset.sum_congr rfl fun k _ => by rw [idx_term, v6_apply]

/-- At the extended reals the host's accumulating scatter is the sum of the updates that land on each entry. -/
theorem scatterAdd_ideal {s si su : Shape} {w : Nat} (d : ScatterDims s si su) (x : FVec Ideal s .f32) (idx : IVec si w)
    (upd : FVec Ideal su .f32) : Host.scatterAdd d x idx upd = Ideal.hostScatterAdd d x idx upd := rfl

/-- The reference's softmax stage at (n, e) is the token's softmax probability. -/
theorem softmax_apply (x0 : (⟨S4194304x8, .f32⟩ : BufTy).Contents (Elt Ideal)) (n : Fin 4194304) (e : Fin 8) :
    val_main_v10 (F := Ideal) x0 (ix2 n e) = Cert.Spec.sm (fun k : Fin 8 => x0 (ix2 n k)) e := by
  rw [val_main_v10_apply, val_main_v9_apply, val_main_v8_apply, idx_rowsum, v7_apply, v6_apply, Ideal.hostDivf_def]
  rfl

/-- The first scatter-add at (t, e) is the segment sum. -/
theorem seg_apply (x0 : (⟨S4194304x8, .f32⟩ : BufTy).Contents (Elt Ideal)) (x1 : (⟨S4194304, .i32⟩ : BufTy).Contents (Elt Ideal)) (t e : Fin 8) :
    val_main_v13 (F := Ideal) x0 x1 (ix2 t e)
      = Cert.Spec.segSum (fun (n : Fin 4194304) (k : Fin 8) => x0 (ix2 n k)) (fun n : Fin 4194304 => x1 (ix1 n)) t e := by
  have h10 : ∀ n : Fin 4194304, val_main_v10 (F := Ideal) x0 (ix2 n e) = Cert.Spec.sm (fun k : Fin 8 => x0 (ix2 n k)) e :=
    fun n => softmax_apply x0 n e
  have h12 : ∀ n : Fin 4194304, val_main_v12 (F := Ideal) x1 (ix2 n (0 : Fin 1)) = x1 (ix1 n) :=
    fun n => by rw [val_main_v12_apply, idx_label_seg]
  have h11 : val_main_v11 (F := Ideal) (ix2 t e) = 0 := by
    rw [val_main_v11_apply, val_main_cst_2_apply, Ideal.ofBits_def, Ideal.ofBits_zero_f32]
  unfold val_main_v13
  generalize val_main_v10 (F := Ideal) x0 = upd at h10 ⊢
  generalize val_main_v12 (F := Ideal) x1 = idx at h12 ⊢
  generalize val_main_v11 (F := Ideal) = z at h11 ⊢
  rw [scatterAdd_ideal, Cert.ReferenceIdeal.Scatter.seg_scatter_apply, h11, zero_add]
  unfold Cert.Spec.segSum
  exact Finset.sum_congr rfl fun n _ => by rw [h12, h10]

/-- The second scatter-add at t is the count. -/
theorem cnt_apply (x1 : (⟨S4194304, .i32⟩ : BufTy).Contents (Elt Ideal)) (t : Fin 8) :
    val_main_v17 (F := Ideal) x1 (ix1 t) = Cert.Spec.segCnt (fun n : Fin 4194304 => x1 (ix1 n)) t := by
  have h14 : ∀ n : Fin 4194304, val_main_v14 (F := Ideal) (ix1 n) = 1 :=
    fun n => by rw [val_main_v14_apply, val_main_cst_3_apply, Ideal.ofBits_def, Ideal.ofBits_one_f32]
  have h16 : ∀ n : Fin 4194304, val_main_v16 (F := Ideal) x1 (ix2 n (0 : Fin 1)) = x1 (ix1 n) :=
    fun n => by rw [val_main_v16_apply, idx_label_cnt]
  have h15 : val_main_v15 (F := Ideal) (ix1 t) = 0 := by
    rw [val_main_v15_apply, val_main_cst_4_apply, Ideal.ofBits_def, Ideal.ofBits_zero_f32]
  unfold val_main_v17
  generalize val_main_v14 (F := Ideal) = upd at h14 ⊢
  generalize val_main_v16 (F := Ideal) x1 = idx at h16 ⊢
  generalize val_main_v15 (F := Ideal) = z at h15 ⊢
  rw [scatterAdd_ideal, Cert.ReferenceIdeal.Scatter.cnt_scatter_apply, h15, zero_add]
  unfold Cert.Spec.segCnt
  exact Finset.sum_congr rfl fun n _ => by rw [h16, h14]

end Cert.ReferenceIdeal.RefValue

end
-- ==== Proof.Finite.lean ====
/-
  The precondition read: every logit is a real number.
-/
import proofs.«410063_j17334488007391_2_alg».proof.Defs
import proofs.«410063_j17334488007391_2_alg».proof.Proof.Gen.Pre_finite_inputs
import proofs.«410063_j17334488007391_2_alg».proof.Proof.Gen.KernelIdeal
import Idealize.ShloMosaic.Lib.ReduceAll
import Idealize.ShloMosaic.Lib.ValueIdx

noncomputable section

open Idealize.ShloMosaic Idealize.ShloMosaic.ValueIdx Idealize.SL.Sem

namespace Cert.Finite

instance : Subsingleton Cert.Pre_finite_inputs.S_.Idx := ⟨fun a b => funext fun d => d.elim0⟩

/-- A one-bit word made from a Boolean is 1 only when the Boolean is true. -/
theorem ofBool_eq_one {b : Bool} (h : BitVec.ofBool b = 1#1) : b = true := by
  cases b
  · exact absurd h (by decide)
  · rfl

/-- An extended real whose absolute value `max a (-a)` lies strictly below `⊤` is a real number. -/
theorem real_of_abs_lt_top (a : EReal) (ha : max a (-a) < ⊤) : ∃ r : ℝ, a = (r : EReal) := by
  induction a using EReal.rec with
  | bot => simp at ha
  | coe r => exact ⟨r, rfl⟩
  | top => simp at ha

/-- Where the precondition's predicate is all ones, every entry of the first argument is a real number. -/
theorem real_of_fn [Cert.Pre_finite_inputs.Facts] (x : FVec Ideal Cert.Pre_finite_inputs.S4194304x8 .f32) (y : IVec Cert.Pre_finite_inputs.S4194304 32)
    (h : Cert.Pre_finite_inputs.fn (F := Ideal) x y = fun _ => 1#1) (n : Fin 4194304) (k : Fin 8) :
    ∃ r : ℝ, x (ix2 n k) = (r : EReal) := by
  have h0 := congrFun h ValueIdx.ix0
  dsimp only [Cert.Pre_finite_inputs.fn] at h0
  have h1 := Host.reduce_andi_all _ _ _ _ _ h0 (ix2 n k)
  have h1' : BitVec.ofBool (decide (max (x (ix2 n k)) (-(x (ix2 n k))) < Ideal.ofBits .f32 0x7F800000#32)) = 1#1 := h1
  have h3 := of_decide_eq_true (ofBool_eq_one h1')
  have h2 : max (x (ix2 n k)) (-(x (ix2 n k))) < (⊤ : EReal) := by
    simpa [Ideal.ofBits, Ideal.ieee] using h3
  exact real_of_abs_lt_top _ h2

end Cert.Finite

end
-- ==== Proof.lean ====
/-
  The certificate of the segment-reduce router loss: a Pallas kernel that, per block of 65536 tokens, takes the
  tokens' softmax over eight experts and adds it, by a one-hot matrix product, into an 8×8 table of segment sums by
  task — two halves of the grid accumulating 32 blocks each —, then on the host adds the halves, takes the counts as
  the table's row sums and computes the loss; against a jnp reference that scatter-adds the softmax rows and ones by
  task and computes the same loss.

  Over the extended reals both tables are the same: entry (t, e) is the sum, over the tokens whose label word is task
  t, of expert e's softmax probability (a label that is no task index meets no row of the one-hot and lands outside
  the scatter's table: dropped by both), whatever the grouping of the sum; and for finite logits a token's eight
  probabilities add up to one, so the row sums of the table are the reference's counts. This is the one place the
  precondition is used. The chain from the tables to the loss is the same operations on both sides and is never opened.
-/
import proofs.«410063_j17334488007391_2_alg».proof.Defs
import proofs.«410063_j17334488007391_2_alg».proof.Proof.Gen.Kernel
import proofs.«410063_j17334488007391_2_alg».proof.Proof.Gen.Kernel.Skeleton
import proofs.«410063_j17334488007391_2_alg».proof.Proof.Gen.Kernel.Launch
import proofs.«410063_j17334488007391_2_alg».proof.Proof.Gen.Kernel.Points
import proofs.«410063_j17334488007391_2_alg».proof.Proof.Gen.Kernel.Frame
import proofs.«410063_j17334488007391_2_alg».proof.Proof.Gen.KernelIdeal
import proofs.«410063_j17334488007391_2_alg».proof.Proof.Gen.KernelIdeal.Skeleton
import proofs.«410063_j17334488007391_2_alg».proof.Proof.Gen.KernelIdeal.Launch
import proofs.«410063_j17334488007391_2_alg».proof.Proof.Gen.KernelIdeal.Points
import proofs.«410063_j17334488007391_2_alg».proof.Proof.Gen.KernelIdeal.Frame
import proofs.«410063_j17334488007391_2_alg».proof.Proof.Gen.ReferenceIdeal
import proofs.«410063_j17334488007391_2_alg».proof.Proof.Gen.Pre_finite_inputs
import proofs.«410063_j17334488007391_2_alg».proof.Proof.Gen.ReferenceIdeal.Run
import proofs.«410063_j17334488007391_2_alg».proof.Proof.Gen.ReferenceIdeal.Read
import proofs.«410063_j17334488007391_2_alg».proof.Proof.KRun
import proofs.«410063_j17334488007391_2_alg».proof.Proof.RefVal
import proofs.«410063_j17334488007391_2_alg».proof.Proof.Finite
import Idealize.ShloMosaic.Adequacy
import Idealize.ShloMosaic.Init

noncomputable section

namespace Cert.Proof

open Idealize.ShloMosaic Idealize.ShloMosaic.ValueIdx Idealize.SL.Sem

/-- The three programs run and keep their arguments: the two kernel programs by their frame, the reference by its run. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- The reference's first scatter-add is the table of segment sums, -/
theorem ref_seg (x0 : (⟨Cert.ReferenceIdeal.S4194304x8, .f32⟩ : BufTy).Contents (Elt Ideal)) (x1 : (⟨Cert.ReferenceIdeal.S4194304, .i32⟩ : BufTy).Contents (Elt Ideal)) :
    Cert.ReferenceIdeal.Read.val_main_v13 (F := Ideal) x0 x1
      = Cert.Spec.segTable (fun (n : Fin 4194304) (k : Fin 8) => x0 (ix2 n k)) (fun n : Fin 4194304 => x1 (ix1 n)) := by
  funext j
  obtain ⟨t, e, rfl⟩ : ∃ (t e : Fin 8), j = ix2 t e := ⟨j 0, j 1, eq_ix2 j⟩
  exact Cert.ReferenceIdeal.RefValue.seg_apply x0 x1 t e

/-- and its second the counts. -/
theorem ref_cnt (x1 : (⟨Cert.ReferenceIdeal.S4194304, .i32⟩ : BufTy).Contents (Elt Ideal)) :
    Cert.ReferenceIdeal.Read.val_main_v17 (F := Ideal) x1 = Cert.Spec.cntTable (fun n : Fin 4194304 => x1 (ix1 n)) := by
  funext j
  obtain ⟨t, rfl⟩ : ∃ t : Fin 8, j = ix1 t := ⟨j 0, eq_ix1 j⟩
  exact Cert.ReferenceIdeal.RefValue.cnt_apply x1 t

/-- Both programs end at the shared chain of the segment sums and the counts of the launched logits and labels. -/
theorem algebraic : Cert.algebraic_KernelIdeal_ReferenceIdeal := by
  intro m ρ m' ρ' hpre hagree
  have hfin : ∀ (c : Dev Cert.KernelIdeal.nD) (n : Fin 4194304) (k : Fin 8),
      ∃ r : ℝ, Cert.KernelIdeal.Acc.logits m c n k = (r : EReal) :=
    fun c n k => Cert.Finite.real_of_fn _ _ (hpre c) n k
  refine ⟨fun c => Cert.Spec.tail (F := Ideal) Cert.KernelIdeal.Run.tf
      (Cert.Spec.segTable (Cert.KernelIdeal.Acc.logits m c) (Cert.KernelIdeal.Acc.labels m c))
      (Cert.Spec.cntTable (Cert.KernelIdeal.Acc.labels m c)), Cert.KernelIdeal.Run.run m ρ hfin, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v44_eq, (hagree c).1, (hagree c).2, Cert.ReferenceIdeal.RefValue.result_tail,
    ref_seg, ref_cnt]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
